-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S100000x256 : Shape := ⟨2, ![100000, 256]⟩
abbrev S100000 : Shape := ⟨1, ![100000]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S32x256 : S_.BroadcastsInDim S32x256 (![] : Fin 0 → Fin S32x256.rank)
  reducesTo_S32x256_S_d0_1 : S32x256.ReducesTo [0, 1] S_

variable [Facts]

def fn_part3 {F : FTy → Type} [FloatOps F] (main_arg12 : FVec F S32 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S1024 .f32) (main_arg9 : FVec F S1024x256 .f32) (main_arg10 : FVec F S1024 .f32) (main_arg11 : FVec F S32x256 .f32) (main_arg12 : FVec F S32 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x256 .f32 := Host.absf main_arg9
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S32x256 .f32 := Host.absf main_arg11
  let main_cst_18 : FVec F S_ .f32 := constant S_ .f32 0x7F800000#32
  let main_v50 : FVec F S32x256 .f32 := broadcastInDim S32x256 ![] bcast_S_S32x256 main_cst_18
  fn_part3 (F := F) main_arg12 main_v48 main_v49 main_v50

def fn_part1 {F : FTy → Type} [FloatOps F] (main_arg5 : FVec F S32x8 .f32) (main_arg6 : FVec F S32 .f32) (main_arg7 : FVec F S1024x32 .f32) (main_arg8 : FVec F S1024 .f32) (main_arg9 : FVec F S1024x256 .f32) (main_arg10 : FVec F S1024 .f32) (main_arg11 : FVec F S32x256 .f32) (main_arg12 : FVec F S32 .f32) (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  let main_v19 : FVec F S32x8 .f32 := Host.absf main_arg5
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1024x32 .f32 := Host.absf main_arg7
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x2 .f32) (main_arg1 : FVec F S100000x2 .f32) (main_arg2 : FVec F S100000x256 .f32) (main_arg3 : FVec F S100000x256 .f32) (main_arg4 : IVec S100000 1) (main_arg5 : FVec F S32x8 .f32) (main_arg6 : FVec F S32 .f32) (main_arg7 : FVec F S1024x32 .f32) (main_arg8 : FVec F S1024 .f32) (main_arg9 : FVec F S1024x256 .f32) (main_arg10 : FVec F S1024 .f32) (main_arg11 : FVec F S32x256 .f32) (main_arg12 : FVec F S32 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_arg5 main_arg6 main_arg7 main_arg8 main_arg9 main_arg10 main_arg11 main_arg12 main_v13 main_v16
-- ==== Kernel.lean ====
abbrev S100000x2 : Shape := ⟨2, ![100000, 2]⟩
abbrev S100000x256 : Shape := ⟨2, ![100000, 256]⟩
abbrev S100000 : Shape := ⟨1, ![100000]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S_ : Shape := ⟨0, ![]⟩
abbrev S2 : Shape := ⟨1, ![2]⟩
abbrev S1x2 : Shape := ⟨2, ![1, 2]⟩
abbrev S1x4 : Shape := ⟨2, ![1, 4]⟩
abbrev S8x32 : Shape := ⟨2, ![8, 32]⟩
abbrev S32x1024 : Shape := ⟨2, ![32, 1024]⟩
abbrev S256x1024 : Shape := ⟨2, ![256, 1024]⟩
abbrev S256x32 : Shape := ⟨2, ![256, 32]⟩
abbrev S1x32 : Shape := ⟨2, ![1, 32]⟩
abbrev S1x1024 : Shape := ⟨2, ![1, 1024]⟩
abbrev S100000x32 : Shape := ⟨2, ![100000, 32]⟩
abbrev S1000x2 : Shape := ⟨2, ![1000, 2]⟩
abbrev S1000x256 : Shape := ⟨2, ![1000, 256]⟩
abbrev S1000x32 : Shape := ⟨2, ![1000, 32]⟩
abbrev S1000x4 : Shape := ⟨2, ![1000, 4]⟩
abbrev S1000x8 : Shape := ⟨2, ![1000, 8]⟩
abbrev S1000x1024 : Shape := ⟨2, ![1000, 1024]⟩

abbrev nBuf : Space → Nat
  | .hbm => 42
  | .vmem => 19
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S100000x256, .f32⟩
  | .hbm, ⟨3, _⟩ => ⟨S100000x256, .f32⟩
  | .hbm, ⟨4, _⟩ => ⟨S100000, .i1⟩
  | .hbm, ⟨5, _⟩ => ⟨S32x8, .f32⟩
  | .hbm, ⟨6, _⟩ => ⟨S32, .f32⟩
  | .hbm, ⟨7, _⟩ => ⟨S1024x32, .f32⟩
  | .hbm, ⟨8, _⟩ => ⟨S1024, .f32⟩
  | .hbm, ⟨9, _⟩ => ⟨S1024x256, .f32⟩
  | .hbm, ⟨10, _⟩ => ⟨S1024, .f32⟩
  | .hbm, ⟨11, _⟩ => ⟨S32x256, .f32⟩
  | .hbm, ⟨12, _⟩ => ⟨S32, .f32⟩
  | .hbm, ⟨13, _⟩ => ⟨S_, .f32⟩
  | .hbm, ⟨14, _⟩ => ⟨S2, .f32⟩
  | .hbm, ⟨15, _⟩ => ⟨S1x2, .f32⟩
  | .hbm, ⟨16, _⟩ => ⟨S_, .f32⟩
  | .hbm, ⟨17, _⟩ => ⟨S2, .f32⟩
  | .hbm, ⟨18, _⟩ => ⟨S1x2, .f32⟩
  | .hbm, ⟨19, _⟩ => ⟨S1x2, .f32⟩
  | .hbm, ⟨20, _⟩ => ⟨S1x4, .f32⟩
  | .hbm, ⟨21, _⟩ => ⟨S8x32, .f32⟩
  | .hbm, ⟨22, _⟩ => ⟨S8x32, .bf16⟩
  | .hbm, ⟨23, _⟩ => ⟨S32x1024, .f32⟩
  | .hbm, ⟨24, _⟩ => ⟨S32x1024, .bf16⟩
  | .hbm, ⟨25, _⟩ => ⟨S256x1024, .f32⟩
  | .hbm, ⟨26, _⟩ => ⟨S256x1024, .bf16⟩
  | .hbm, ⟨27, _⟩ => ⟨S256x32, .f32⟩
  | .hbm, ⟨28, _⟩ => ⟨S256x32, .bf16⟩
  | .hbm, ⟨29, _⟩ => ⟨S1x32, .f32⟩
  | .hbm, ⟨30, _⟩ => ⟨S1x1024, .f32⟩
  | .hbm, ⟨31, _⟩ => ⟨S1x1024, .f32⟩
  | .hbm, ⟨32, _⟩ => ⟨S1x32, .f32⟩
  | .hbm, ⟨33, _⟩ => ⟨S100000x32, .f32⟩
  | .hbm, ⟨34, _⟩ => ⟨S100000, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .f32⟩
  | .hbm, ⟨40, _⟩ => ⟨S100000x32, .f32⟩
  | .hbm, ⟨41, _⟩ => ⟨S100000x32, .f32⟩
  | .local _ .vmem, ⟨0, _⟩ => ⟨S1x4, .f32⟩
  | .local _ .vmem, ⟨1, _⟩ => ⟨S1000x2, .f32⟩
  | .local _ .vmem, ⟨2, _⟩ => ⟨S1000x2, .f32⟩
  | .local _ .vmem, ⟨3, _⟩ => ⟨S1000x2, .f32⟩
  | .local _ .vmem, ⟨4, _⟩ => ⟨S1000x2, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S8x32, .bf16⟩
  | .local _ .vmem, ⟨10, _⟩ => ⟨S1x32, .f32⟩
  | .local _ .vmem, ⟨11, _⟩ => ⟨S32x1024, .bf16⟩
  | .local _ .vmem, ⟨12, _⟩ => ⟨S1x1024, .f32⟩
  | .local _ .vmem, ⟨13, _⟩ => ⟨S256x1024, .bf16⟩
  | .local _ .vmem, ⟨14, _⟩ => ⟨S1x1024, .f32⟩
  | .local _ .vmem, ⟨15, _⟩ => ⟨S256x32, .bf16⟩
  | .local _ .vmem, ⟨16, _⟩ => ⟨S1x32, .f32⟩
  | .local _ .vmem, ⟨17, _⟩ => ⟨S1000x32, .f32⟩
  | .local _ .vmem, ⟨18, _⟩ => ⟨S1000x32, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  reducesTo_S100000x2_S2_d0 : S100000x2.ReducesTo [0] S2
  h_S_ : 0 < S_.numel
  bcast_S2_S1x2_1 : S2.BroadcastsInDim S1x2 (![1] : Fin 1 → Fin S1x2.rank)
  concatenates_S1x2_S1x2_S1x4_d1 : Shape.Concatenates [S1x2, S1x2] S1x4 1
  transposes_S32x8_S8x32_1_0 : S32x8.Transposes [1, 0] S8x32
  bitsLt_bf16_f32 : FTy.bits .bf16 < FTy.bits .f32
  transposes_S1024x32_S32x1024_1_0 : S1024x32.Transposes [1, 0] S32x1024
  transposes_S1024x256_S256x1024_1_0 : S1024x256.Transposes [1, 0] S256x1024
  transposes_S32x256_S256x32_1_0 : S32x256.Transposes [1, 0] S256x32
  shapeCasts_S32_S1x32 : S32.ShapeCasts S1x32
  shapeCasts_S1024_S1x1024 : S1024.ShapeCasts S1x1024
  inb_S1000x2_S1000x2_0_0 : ∀ a, (![0, 0] : Fin 2 → Nat) a + S1000x2.size a ≤ S1000x2.size a
  h_S1000x2 : 0 < S1000x2.numel
  concatenates_S1000x2_S1000x2_S1000x4_d1 : Shape.Concatenates [S1000x2, S1000x2] S1000x4 1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1000x4 : S1x4.Broadcasts S1000x4
  concatenates_S1000x4_S1000x4_S1000x8_d1 : Shape.Concatenates [S1000x4, S1000x4] S1000x8 1
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x256_S1000x256_0_0 : ∀ a, (![0, 0] : Fin 2 → Nat) a + S1000x256.size a ≤ S1000x256.size a
  h_S1000x256 : 0 < S1000x256.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  slices_S1000x1024_o0_0_S1000x256 : S1000x1024.Slices ![0, 0] S1000x256
  slices_S1000x1024_o0_256_S1000x256 : S1000x1024.Slices ![0, 256] S1000x256
  slices_S1000x1024_o0_512_S1000x256 : S1000x1024.Slices ![0, 512] S1000x256
  slices_S1000x1024_o0_768_S1000x256 : S1000x1024.Slices ![0, 768] S1000x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1000x32_S1000x32_0_0 : ∀ a, (![0, 0] : Fin 2 → Nat) a + S1000x32.size a ≤ S1000x32.size a
  h_S1000x32 : 0 < S1000x32.numel
  natLt_1_32 : 1 < 32
  reducesTo_S100000_S_d0 : S100000.ReducesTo [0] S_
  bcast_S_S100000x32 : S_.BroadcastsInDim S100000x32 (![] : Fin 0 → Fin S100000x32.rank)
  dot_S1000x8_S8x32_S1000x32_1_0_0_1_n_n_wf : DotDims.WF S1000x8 S8x32 S1000x32 [1] [0] [0] [1] [] []
  dot_S1000x32_S32x1024_S1000x1024_1_0_0_1_n_n_wf : DotDims.WF S1000x32 S32x1024 S1000x1024 [1] [0] [0] [1] [] []
  dot_S1000x256_S256x1024_S1000x1024_1_0_0_1_n_n_wf : DotDims.WF S1000x256 S256x1024 S1000x1024 [1] [0] [0] [1] [] []
  dot_S1000x256_S256x32_S1000x32_1_0_0_1_n_n_wf : DotDims.WF S1000x256 S256x32 S1000x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4.size a ≤ S1x4.size a
  hwx0_0 : ∀ i : grid0.Coords, EltTy.bits .f32 = 32 ∨ (Rect.block (s := S1x4) S1x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2.size a ≤ S100000x2.size a
  hwx0_1 : ∀ i : grid0.Coords, EltTy.bits .f32 = 32 ∨ (Rect.block (s := S100000x2) S1000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x2.size a ≤ S100000x2.size a
  hwx0_2 : ∀ i : grid0.Coords, EltTy.bits .f32 = 32 ∨ (Rect.block (s := S100000x2) S1000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S100000x256.size a
  hwx0_3 : ∀ i : grid0.Coords, EltTy.bits .f32 = 32 ∨ (Rect.block (s := S100000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S100000x256.size a
  hwx0_4 : ∀ i : grid0.Coords, EltTy.bits .f32 = 32 ∨ (Rect.block (s := S100000x256) S1000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .bf16 = 32 ∨ (Rect.block (s := S8x32) S8x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1024.size a ≤ S32x1024.size a
  hwx0_7 : ∀ i : grid0.Coords, EltTy.bits .bf16 = 32 ∨ (Rect.block (s := S32x1024) S32x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S256x1024.size a
  hwx0_9 : ∀ i : grid0.Coords, EltTy.bits .bf16 = 32 ∨ (Rect.block (s := S256x1024) S256x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x32.size a ≤ S256x32.size a
  hwx0_11 : ∀ i : grid0.Coords, EltTy.bits .bf16 = 32 ∨ (Rect.block (s := S256x32) S256x32.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x32.size a ≤ S100000x32.size a
  hwx0_13 : ∀ i : grid0.Coords, EltTy.bits .f32 = 32 ∨ (Rect.block (s := S100000x32) S1000x32.size (cc0_transform_13 i) (hinb0_13 i)).WholeWords (EltTy.packing .f32)

variable [Facts₀]

def dot_S1000x8_S8x32_S1000x32_1_0_0_1_n_n : DotDims S1000x8 S8x32 S1000x32 where
  lhsContracting := [1]
  rhsContracting := [0]
  lhsNonContracting := [0]
  rhsNonContracting := [1]
  lhsBatch := []
  rhsBatch := []
  wf := dot_S1000x8_S8x32_S1000x32_1_0_0_1_n_n_wf
def dot_S1000x32_S32x1024_S1000x1024_1_0_0_1_n_n : DotDims S1000x32 S32x1024 S1000x1024 where
  lhsContracting := [1]
  rhsContracting := [0]
  lhsNonContracting := [0]
  rhsNonContracting := [1]
  lhsBatch := []
  rhsBatch := []
  wf := dot_S1000x32_S32x1024_S1000x1024_1_0_0_1_n_n_wf
def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf
def dot_S1000x256_S256x32_S1000x32_1_0_0_1_n_n : DotDims S1000x256 S256x32 S1000x32 where
  lhsContracting := [1]
  rhsContracting := [0]
  lhsNonContracting := [0]
  rhsNonContracting := [1]
  lhsBatch := []
  rhsBatch := []
  wf := dot_S1000x256_S256x32_S1000x32_1_0_0_1_n_n_wf

abbrev win0_0 : Pipeline.Window sig grid0 :=
  Pipeline.Window.ofSpec (Memref.whole main_v5) S1x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S32x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S256x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1000x32.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x2 : Shape := ⟨2, ![100000, 2]⟩
abbrev S100000x256 : Shape := ⟨2, ![100000, 256]⟩
abbrev S100000 : Shape := ⟨1, ![100000]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S100000x4 : Shape := ⟨2, ![100000, 4]⟩
abbrev S_ : Shape := ⟨0, ![]⟩
abbrev S4 : Shape := ⟨1, ![4]⟩
abbrev S1x4 : Shape := ⟨2, ![1, 4]⟩
abbrev S100000x8 : Shape := ⟨2, ![100000, 8]⟩
abbrev S8x32 : Shape := ⟨2, ![8, 32]⟩
abbrev S100000x32 : Shape := ⟨2, ![100000, 32]⟩
abbrev S1x32 : Shape := ⟨2, ![1, 32]⟩
abbrev S32x1024 : Shape := ⟨2, ![32, 1024]⟩
abbrev S100000x1024 : Shape := ⟨2, ![100000, 1024]⟩
abbrev S1x1024 : Shape := ⟨2, ![1, 1024]⟩
abbrev S256x1024 : Shape := ⟨2, ![256, 1024]⟩
abbrev S256x32 : Shape := ⟨2, ![256, 32]⟩

abbrev nBuf : Space → Nat
  | .hbm => 87
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S100000x256, .f32⟩
  | .hbm, ⟨3, _⟩ => ⟨S100000x256, .f32⟩
  | .hbm, ⟨4, _⟩ => ⟨S100000, .i1⟩
  | .hbm, ⟨5, _⟩ => ⟨S32x8, .f32⟩
  | .hbm, ⟨6, _⟩ => ⟨S32, .f32⟩
  | .hbm, ⟨7, _⟩ => ⟨S1024x32, .f32⟩
  | .hbm, ⟨8, _⟩ => ⟨S1024, .f32⟩
  | .hbm, ⟨9, _⟩ => ⟨S1024x256, .f32⟩
  | .hbm, ⟨10, _⟩ => ⟨S1024, .f32⟩
  | .hbm, ⟨11, _⟩ => ⟨S32x256, .f32⟩
  | .hbm, ⟨12, _⟩ => ⟨S32, .f32⟩
  | .hbm, ⟨13, _⟩ => ⟨S100000x2, .f32⟩
  | .hbm, ⟨14, _⟩ => ⟨S100000x4, .f32⟩
  | .hbm, ⟨15, _⟩ => ⟨S_, .f32⟩
  | .hbm, ⟨16, _⟩ => ⟨S4, .f32⟩
  | .hbm, ⟨17, _⟩ => ⟨S1x4, .f32⟩
  | .hbm, ⟨18, _⟩ => ⟨S100000x4, .f32⟩
  | .hbm, ⟨19, _⟩ => ⟨S100000x4, .f32⟩
  | .hbm, ⟨20, _⟩ => ⟨S100000x8, .f32⟩
  | .hbm, ⟨21, _⟩ => ⟨S8x32, .f32⟩
  | .hbm, ⟨22, _⟩ => ⟨S100000x32, .f32⟩
  | .hbm, ⟨23, _⟩ => ⟨S1x32, .f32⟩
  | .hbm, ⟨24, _⟩ => ⟨S100000x32, .f32⟩
  | .hbm, ⟨25, _⟩ => ⟨S100000x32, .f32⟩
  | .hbm, ⟨26, _⟩ => ⟨S_, .f32⟩
  | .hbm, ⟨27, _⟩ => ⟨S100000x32, .f32⟩
  | .hbm, ⟨28, _⟩ => ⟨S100000x32, .f32⟩
  | .hbm, ⟨29, _⟩ => ⟨S32x1024, .f32⟩
  | .hbm, ⟨30, _⟩ => ⟨S100000x1024, .f32⟩
  | .hbm, ⟨31, _⟩ => ⟨S1x1024, .f32⟩
  | .hbm, ⟨32, _⟩ => ⟨S100000x1024, .f32⟩
  | .hbm, ⟨33, _⟩ => ⟨S100000x1024, .f32⟩
  | .hbm, ⟨34, _⟩ => ⟨S256x1024, .f32⟩
  | .hbm, ⟨35, _⟩ => ⟨S100000x1024, .f32⟩
  | .hbm, ⟨36, _⟩ => ⟨S100000x1024, .f32⟩
  | .hbm, ⟨37, _⟩ => ⟨S1x1024, .f32⟩
  | .hbm, ⟨38, _⟩ => ⟨S100000x1024, .f32⟩
  | .hbm, ⟨39, _⟩ => ⟨S100000x1024, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S_, .f32⟩
  | .hbm, ⟨50, _⟩ => ⟨S100000x256, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .f32⟩
  | .hbm, ⟨58, _⟩ => ⟨S_, .f32⟩
  | .hbm, ⟨59, _⟩ => ⟨S100000x256, .f32⟩
  | .hbm, ⟨60, _⟩ => ⟨S100000x256, .f32⟩
  | .hbm, ⟨61, _⟩ => ⟨S100000x256, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S100000x256, .f32⟩
  | .hbm, ⟨71, _⟩ => ⟨S100000x256, .f32⟩
  | .hbm, ⟨72, _⟩ => ⟨S100000x256, .f32⟩
  | .hbm, ⟨73, _⟩ => ⟨S100000x256, .f32⟩
  | .hbm, ⟨74, _⟩ => ⟨S256x32, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S100000, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .f32⟩
  | .hbm, ⟨85, _⟩ => ⟨S100000x32, .f32⟩
  | .hbm, ⟨86, _⟩ => ⟨S100000x32, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_0 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_v58 : Ref sig .tc := ⟨.hbm, 81, rfl⟩
abbrev main_c_6 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  concatenates_S100000x2_S100000x2_S100000x4_d1 : Shape.Concatenates [S100000x2, S100000x2] S100000x4 1
  reducesTo_S100000x4_S4_d0 : S100000x4.ReducesTo [0] S4
  h_S_ : 0 < S_.numel
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  concatenates_S100000x4_S100000x4_S100000x8_d1 : Shape.Concatenates [S100000x4, S100000x4] S100000x8 1
  transposes_S32x8_S8x32_1_0 : S32x8.Transposes [1, 0] S8x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  transposes_S1024x256_S256x1024_1_0 : S1024x256.Transposes [1, 0] S256x1024
  slices_S100000x1024_S100000x256_0_0 : S100000x1024.Slices ![0, 0] S100000x256
  slices_S100000x1024_S100000x256_0_256 : S100000x1024.Slices ![0, 256] S100000x256
  slices_S100000x1024_S100000x256_0_512 : S100000x1024.Slices ![0, 512] S100000x256
  slices_S100000x1024_S100000x256_0_768 : S100000x1024.Slices ![0, 768] S100000x256
  bcast_S_S100000x256 : S_.BroadcastsInDim S100000x256 (![] : Fin 0 → Fin S100000x256.rank)
  transposes_S32x256_S256x32_1_0 : S32x256.Transposes [1, 0] S256x32
  natLt_1_32 : 1 < 32
  reducesTo_S100000_S_d0 : S100000.ReducesTo [0] S_
  dot_S100000x8_S8x32_S100000x32_1_0_0_1_n_n_wf : DotDims.WF S100000x8 S8x32 S100000x32 [1] [0] [0] [1] [] []
  dot_S100000x32_S32x1024_S100000x1024_1_0_0_1_n_n_wf : DotDims.WF S100000x32 S32x1024 S100000x1024 [1] [0] [0] [1] [] []
  dot_S100000x256_S256x1024_S100000x1024_1_0_0_1_n_n_wf : DotDims.WF S100000x256 S256x1024 S100000x1024 [1] [0] [0] [1] [] []
  dot_S100000x256_S256x32_S100000x32_1_0_0_1_n_n_wf : DotDims.WF S100000x256 S256x32 S100000x32 [1] [0] [0] [1] [] []

variable [Facts₀]

def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def dot_S100000x32_S32x1024_S100000x1024_1_0_0_1_n_n : DotDims S100000x32 S32x1024 S100000x1024 where
  lhsContracting := [1]
  rhsContracting := [0]
  lhsNonContracting := [0]
  rhsNonContracting := [1]
  lhsBatch := []
  rhsBatch := []
  wf := dot_S100000x32_S32x1024_S100000x1024_1_0_0_1_n_n_wf
def dot_S100000x256_S256x1024_S100000x1024_1_0_0_1_n_n : DotDims S100000x256 S256x1024 S100000x1024 where
  lhsContracting := [1]
  rhsContracting := [0]
  lhsNonContracting := [0]
  rhsNonContracting := [1]
  lhsBatch := []
  rhsBatch := []
  wf := dot_S100000x256_S256x1024_S100000x1024_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf

class Facts : Prop extends Facts₀ where

variable [Facts]
-- ==== Proof.KBefore.lean ====
/-
  What the region finds in the total row, the first of the arrays the host computes before it, as a term of the
  arguments: the column sums of the second observation, then those sums minus the column sums of the first.
-/
import proofs.«128018_j63410897158187_1_alg».proof.Proof.Gen.KernelIdeal.Frame
import Idealize.ShloMosaic.Lib.StableHlo.Run
import Idealize.ShloMosaic.Lib.ValueIdx

noncomputable section

namespace Cert.KernelIdeal.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The total row as the kernel's host code computes it from the two observation arrays. -/
def totalRow (a0 a1 : FVec Ideal S100000x2 .f32) : FVec Ideal S1x4 .f32 :=
  concatenate S1x4 1
    [⟨S1x2, broadcastInDim S1x2 ![1] bcast_S2_S1x2_1 (Host.reduceAdd a1 (constant S_ .f32 0x00000000#32) reducesTo_S100000x2_S2_d0 h_S_)⟩,
     ⟨S1x2, subf (broadcastInDim S1x2 ![1] bcast_S2_S1x2_1 (Host.reduceAdd a1 (constant S_ .f32 0x00000000#32) reducesTo_S100000x2_S2_d0 h_S_))
        (broadcastInDim S1x2 ![1] bcast_S2_S1x2_1 (Host.reduceAdd a0 (constant S_ .f32 0x00000000#32) reducesTo_S100000x2_S2_d0 h_S_))⟩]
    concatenates_S1x2_S1x2_S1x4_d1

theorem V_total (c : Dev nD) :
    (V m c main_v5 : S1x4.Idx → EReal) = totalRow (m ((c : Thread nD τ).loc main_arg0)) (m ((c : Thread nD τ).loc main_arg1)) := by
  show StableHlo.after hostOps0 (fun b => m (c, b)) (Proc.devRef .tc main_v5) = _
  after_results
  rfl

end Cert.KernelIdeal.Arr

end
-- ==== Proof.KBlocks.lean ====
/-
  The printed index maps, decided once over the 100 grid points, and the total row's block. The four row-blocked
  windows (the two observations, the hidden and the cell state) and the output window move one block of 1000 rows per
  grid point; the other nine windows (the total row, the weights, the biases) always show their whole array.
-/
import proofs.«128018_j63410897158187_1_alg».proof.Proof.Gen.KernelIdeal.Frame
import proofs.«128018_j63410897158187_1_alg».proof.Proof.KBefore
import Idealize.ShloMosaic.Lib.ValueIdx

noncomputable section

namespace Cert.KernelIdeal.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The row-blocked windows and the output window: block index (t, 0) at grid point t. -/
theorem idx_rows : ∀ t : Fin cfg0.N,
    win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_13.index t (0 : Fin 2) = t.val ∧ win0_13.index t (1 : Fin 2) = 0 :=
  (by decide +kernel : ∀ t : Fin grid0.N, _)

/-- The whole-array windows: block index (0, 0) at every grid point. -/
theorem idx_whole : ∀ t : Fin cfg0.N,
    win0_0.index t (0 : Fin 2) = 0 ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The total row's block at any point is the total row the host computed. -/
theorem blk_total (c : Dev nD) (t : Fin cfg0.N) (j : Fin 4) :
    (iblk m c 0 t : S1x4.Idx → EReal) (ix2 (0 : Fin 1) j)
      = totalRow (m ((c : Thread nD τ).loc main_arg0)) (m ((c : Thread nD τ).loc main_arg1)) (ix2 (0 : Fin 1) j) := by
  have hi := idx_whole t
  have he : ((cfg0.win 0).blk t).view.emb (ix2 (0 : Fin 1) j) = ix2 (0 : Fin 1) j := by
    funext a; apply Fin.ext
    match a with
    | ⟨0, _⟩ => show win0_0.index t (0 : Fin 2) * 1 + 1 * 0 = 0; omega
    | ⟨1, _⟩ => show win0_0.index t (1 : Fin 2) * 4 + 1 * j.val = j.val; omega
  show (V m c main_v5 : S1x4.Idx → EReal) (((cfg0.win 0).blk t).view.emb (ix2 (0 : Fin 1) j)) = _
  rw [V_total, he]

end Cert.KernelIdeal.Arr

end
-- ==== Proof.KBeforeOps.lean ====
/-
  What the region finds in the eight operands the host prepares from one argument each: the four weight matrices
  transposed (and changed to the short float format, which is the identity at the ideal instance), and the four bias
  vectors reshaped to one row.
-/
import proofs.«128018_j63410897158187_1_alg».proof.Proof.Gen.KernelIdeal.Frame
import Idealize.ShloMosaic.Lib.StableHlo.Run
import Idealize.ShloMosaic.Lib.ValueIdx

noncomputable section

namespace Cert.KernelIdeal.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The embedding weights, transposed (the change of float format is the identity at the ideal instance). -/
def wEmbT (a : FVec Ideal S32x8 .f32) : FVec Ideal S8x32 .bf16 :=
  truncf .bf16 (transpose S8x32 [1, 0] a transposes_S32x8_S8x32_1_0) bitsLt_bf16_f32

theorem V_wEmbT (c : Dev nD) : (V m c main_v7 : S8x32.Idx → EReal) = wEmbT (m ((c : Thread nD τ).loc main_arg5)) := by
  show StableHlo.after hostOps0 (fun b => m (c, b)) (Proc.devRef .tc main_v7) = _
  after_results
  rfl

/-- The input-to-gates weights, transposed (the change of float format is the identity at the ideal instance). -/
def wIhT (a : FVec Ideal S1024x32 .f32) : FVec Ideal S32x1024 .bf16 :=
  truncf .bf16 (transpose S32x1024 [1, 0] a transposes_S1024x32_S32x1024_1_0) bitsLt_bf16_f32

theorem V_wIhT (c : Dev nD) : (V m c main_v9 : S32x1024.Idx → EReal) = wIhT (m ((c : Thread nD τ).loc main_arg7)) := by
  show StableHlo.after hostOps0 (fun b => m (c, b)) (Proc.devRef .tc main_v9) = _
  after_results
  rfl

/-- The hidden-to-gates weights, transposed (the change of float format is the identity at the ideal instance). -/
def wHhT (a : FVec Ideal S1024x256 .f32) : FVec Ideal S256x1024 .bf16 :=
  truncf .bf16 (transpose S256x1024 [1, 0] a transposes_S1024x256_S256x1024_1_0) bitsLt_bf16_f32

theorem V_wHhT (c : Dev nD) : (V m c main_v11 : S256x1024.Idx → EReal) = wHhT (m ((c : Thread nD τ).loc main_arg9)) := by
  show StableHlo.after hostOps0 (fun b => m (c, b)) (Proc.devRef .tc main_v11) = _
  after_results
  rfl

/-- The output weights, transposed (the change of float format is the identity at the ideal instance). -/
def wOutT (a : FVec Ideal S32x256 .f32) : FVec Ideal S256x32 .bf16 :=
  truncf .bf16 (transpose S256x32 [1, 0] a transposes_S32x256_S256x32_1_0) bitsLt_bf16_f32

theorem V_wOutT (c : Dev nD) : (V m c main_v13 : S256x32.Idx → EReal) = wOutT (m ((c : Thread nD τ).loc main_arg11)) := by
  show StableHlo.after hostOps0 (fun b => m (c, b)) (Proc.devRef .tc main_v13) = _
  after_results
  rfl

/-- The embedding bias as one row. -/
def bEmbRow (a : FVec Ideal S32 .f32) : FVec Ideal S1x32 .f32 := shapeCast S1x32 a shapeCasts_S32_S1x32

theorem V_bEmbRow (c : Dev nD) : (V m c main_v14 : S1x32.Idx → EReal) = bEmbRow (m ((c : Thread nD τ).loc main_arg6)) := by
  show StableHlo.after hostOps0 (fun b => m (c, b)) (Proc.devRef .tc main_v14) = _
  after_results
  rfl

/-- The input-to-gates bias as one row. -/
def bIhRow (a : FVec Ideal S1024 .f32) : FVec Ideal S1x1024 .f32 := shapeCast S1x1024 a shapeCasts_S1024_S1x1024

theorem V_bIhRow (c : Dev nD) : (V m c main_v15 : S1x1024.Idx → EReal) = bIhRow (m ((c : Thread nD τ).loc main_arg8)) := by
  show StableHlo.after hostOps0 (fun b => m (c, b)) (Proc.devRef .tc main_v15) = _
  after_results
  rfl

/-- The hidden-to-gates bias as one row. -/
def bHhRow (a : FVec Ideal S1024 .f32) : FVec Ideal S1x1024 .f32 := shapeCast S1x1024 a shapeCasts_S1024_S1x1024

theorem V_bHhRow (c : Dev nD) : (V m c main_v16 : S1x1024.Idx → EReal) = bHhRow (m ((c : Thread nD τ).loc main_arg10)) := by
  show StableHlo.after hostOps0 (fun b => m (c, b)) (Proc.devRef .tc main_v16) = _
  after_results
  rfl

/-- The output bias as one row. -/
def bOutRow (a : FVec Ideal S32 .f32) : FVec Ideal S1x32 .f32 := shapeCast S1x32 a shapeCasts_S32_S1x32

theorem V_bOutRow (c : Dev nD) : (V m c main_v17 : S1x32.Idx → EReal) = bOutRow (m ((c : Thread nD τ).loc main_arg12)) := by
  show StableHlo.after hostOps0 (fun b => m (c, b)) (Proc.devRef .tc main_v17) = _
  after_results
  rfl

end Cert.KernelIdeal.Arr

end
-- ==== Proof.KBlockReads.lean ====
/-
  What each input window's block holds at a coordinate, in terms of the arguments. A row-blocked operand's block at
  grid point t is rows t · 1000 … t · 1000 + 999 of its array; a weight operand's block is the whole transposed weight
  matrix, so entry (a, b) is the argument's entry (b, a); a bias operand's block is the bias as one row.
-/
import proofs.«128018_j63410897158187_1_alg».proof.Proof.KBlocks
import proofs.«128018_j63410897158187_1_alg».proof.Proof.KBeforeOps
import Idealize.ShloMosaic.Lib.ValueLayout

noncomputable section

namespace Cert.KernelIdeal.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The first observation: row r of point t's block is row t · 1000 + r of the array. -/
theorem blk_obs1 (c : Dev nD) (t : Fin cfg0.N) (r : Fin 1000) (j : Fin 2) (n : Fin 100000) (hn : n.val = t.val * 1000 + r.val) :
    (iblk m c 1 t : S1000x2.Idx → EReal) (ix2 r j) = (m ((c : Thread nD τ).loc main_arg0) : S100000x2.Idx → EReal) (ix2 n j) := by
  have hi := idx_rows t
  have he : ((cfg0.win 1).blk t).view.emb (ix2 r j) = ix2 n j := by
    funext a; apply Fin.ext
    match a with
    | ⟨0, _⟩ => show win0_1.index t (0 : Fin 2) * 1000 + 1 * r.val = n.val; omega
    | ⟨1, _⟩ => show win0_1.index t (1 : Fin 2) * 2 + 1 * j.val = j.val; omega
  show (V m c main_arg0 : S100000x2.Idx → EReal) (((cfg0.win 1).blk t).view.emb (ix2 r j)) = _
  rw [V_main_arg0, he]

/-- The second observation: row r of point t's block is row t · 1000 + r of the array. -/
theorem blk_obs2 (c : Dev nD) (t : Fin cfg0.N) (r : Fin 1000) (j : Fin 2) (n : Fin 100000) (hn : n.val = t.val * 1000 + r.val) :
    (iblk m c 2 t : S1000x2.Idx → EReal) (ix2 r j) = (m ((c : Thread nD τ).loc main_arg1) : S100000x2.Idx → EReal) (ix2 n j) := by
  have hi := idx_rows t
  have he : ((cfg0.win 2).blk t).view.emb (ix2 r j) = ix2 n j := by
    funext a; apply Fin.ext
    match a with
    | ⟨0, _⟩ => show win0_2.index t (0 : Fin 2) * 1000 + 1 * r.val = n.val; omega
    | ⟨1, _⟩ => show win0_2.index t (1 : Fin 2) * 2 + 1 * j.val = j.val; omega
  show (V m c main_arg1 : S100000x2.Idx → EReal) (((cfg0.win 2).blk t).view.emb (ix2 r j)) = _
  rw [V_main_arg1, he]

/-- The hidden state: row r of point t's block is row t · 1000 + r of the array. -/
theorem blk_hid (c : Dev nD) (t : Fin cfg0.N) (r : Fin 1000) (j : Fin 256) (n : Fin 100000) (hn : n.val = t.val * 1000 + r.val) :
    (iblk m c 3 t : S1000x256.Idx → EReal) (ix2 r j) = (m ((c : Thread nD τ).loc main_arg2) : S100000x256.Idx → EReal) (ix2 n j) := by
  have hi := idx_rows t
  have he : ((cfg0.win 3).blk t).view.emb (ix2 r j) = ix2 n j := by
    funext a; apply Fin.ext
    match a with
    | ⟨0, _⟩ => show win0_3.index t (0 : Fin 2) * 1000 + 1 * r.val = n.val; omega
    | ⟨1, _⟩ => show win0_3.index t (1 : Fin 2) * 256 + 1 * j.val = j.val; omega
  show (V m c main_arg2 : S100000x256.Idx → EReal) (((cfg0.win 3).blk t).view.emb (ix2 r j)) = _
  rw [V_main_arg2, he]

/-- The cell state: row r of point t's block is row t · 1000 + r of the array. -/
theorem blk_cell (c : Dev nD) (t : Fin cfg0.N) (r : Fin 1000) (j : Fin 256) (n : Fin 100000) (hn : n.val = t.val * 1000 + r.val) :
    (iblk m c 4 t : S1000x256.Idx → EReal) (ix2 r j) = (m ((c : Thread nD τ).loc main_arg3) : S100000x256.Idx → EReal) (ix2 n j) := by
  have hi := idx_rows t
  have he : ((cfg0.win 4).blk t).view.emb (ix2 r j) = ix2 n j := by
    funext a; apply Fin.ext
    match a with
    | ⟨0, _⟩ => show win0_4.index t (0 : Fin 2) * 1000 + 1 * r.val = n.val; omega
    | ⟨1, _⟩ => show win0_4.index t (1 : Fin 2) * 256 + 1 * j.val = j.val; omega
  show (V m c main_arg3 : S100000x256.Idx → EReal) (((cfg0.win 4).blk t).view.emb (ix2 r j)) = _
  rw [V_main_arg3, he]

/-- The embedding weights: the block is the whole transposed matrix. -/
theorem blk_wEmb (c : Dev nD) (t : Fin cfg0.N) (a : Fin 8) (b : Fin 32) :
    (iblk m c 5 t : S8x32.Idx → EReal) (ix2 a b) = (m ((c : Thread nD τ).loc main_arg5) : S32x8.Idx → EReal) (ix2 b a) := by
  have hi := idx_whole t
  have he : ((cfg0.win 5).blk t).view.emb (ix2 a b) = ix2 a b := by
    funext d; apply Fin.ext
    match d with
    | ⟨0, _⟩ => show win0_5.index t (0 : Fin 2) * 8 + 1 * a.val = a.val; omega
    | ⟨1, _⟩ => show win0_5.index t (1 : Fin 2) * 32 + 1 * b.val = b.val; omega
  show (V m c main_v7 : S8x32.Idx → EReal) (((cfg0.win 5).blk t).view.emb (ix2 a b)) = _
  rw [V_wEmbT, he]
  unfold wEmbT
  rw [truncf_apply, transpose_ix2_apply]

/-- The input-to-gates weights: the block is the whole transposed matrix. -/
theorem blk_wIh (c : Dev nD) (t : Fin cfg0.N) (a : Fin 32) (b : Fin 1024) :
    (iblk m c 7 t : S32x1024.Idx → EReal) (ix2 a b) = (m ((c : Thread nD τ).loc main_arg7) : S1024x32.Idx → EReal) (ix2 b a) := by
  have hi := idx_whole t
  have he : ((cfg0.win 7).blk t).view.emb (ix2 a b) = ix2 a b := by
    funext d; apply Fin.ext
    match d with
    | ⟨0, _⟩ => show win0_7.index t (0 : Fin 2) * 32 + 1 * a.val = a.val; omega
    | ⟨1, _⟩ => show win0_7.index t (1 : Fin 2) * 1024 + 1 * b.val = b.val; omega
  show (V m c main_v9 : S32x1024.Idx → EReal) (((cfg0.win 7).blk t).view.emb (ix2 a b)) = _
  rw [V_wIhT, he]
  unfold wIhT
  rw [truncf_apply, transpose_ix2_apply]

/-- The hidden-to-gates weights: the block is the whole transposed matrix. -/
theorem blk_wHh (c : Dev nD) (t : Fin cfg0.N) (a : Fin 256) (b : Fin 1024) :
    (iblk m c 9 t : S256x1024.Idx → EReal) (ix2 a b) = (m ((c : Thread nD τ).loc main_arg9) : S1024x256.Idx → EReal) (ix2 b a) := by
  have hi := idx_whole t
  have he : ((cfg0.win 9).blk t).view.emb (ix2 a b) = ix2 a b := by
    funext d; apply Fin.ext
    match d with
    | ⟨0, _⟩ => show win0_9.index t (0 : Fin 2) * 256 + 1 * a.val = a.val; omega
    | ⟨1, _⟩ => show win0_9.index t (1 : Fin 2) * 1024 + 1 * b.val = b.val; omega
  show (V m c main_v11 : S256x1024.Idx → EReal) (((cfg0.win 9).blk t).view.emb (ix2 a b)) = _
  rw [V_wHhT, he]
  unfold wHhT
  rw [truncf_apply, transpose_ix2_apply]

/-- The output weights: the block is the whole transposed matrix. -/
theorem blk_wOut (c : Dev nD) (t : Fin cfg0.N) (a : Fin 256) (b : Fin 32) :
    (iblk m c 11 t : S256x32.Idx → EReal) (ix2 a b) = (m ((c : Thread nD τ).loc main_arg11) : S32x256.Idx → EReal) (ix2 b a) := by
  have hi := idx_whole t
  have he : ((cfg0.win 11).blk t).view.emb (ix2 a b) = ix2 a b := by
    funext d; apply Fin.ext
    match d with
    | ⟨0, _⟩ => show win0_11.index t (0 : Fin 2) * 256 + 1 * a.val = a.val; omega
    | ⟨1, _⟩ => show win0_11.index t (1 : Fin 2) * 32 + 1 * b.val = b.val; omega
  show (V m c main_v13 : S256x32.Idx → EReal) (((cfg0.win 11).blk t).view.emb (ix2 a b)) = _
  rw [V_wOutT, he]
  unfold wOutT
  rw [truncf_apply, transpose_ix2_apply]

/-- The embedding bias: the block is the bias as one row. -/
theorem blk_bEmb (c : Dev nD) (t : Fin cfg0.N) (b : Fin 32) :
    (iblk m c 6 t : S1x32.Idx → EReal) (ix2 (0 : Fin 1) b) = (m ((c : Thread nD τ).loc main_arg6) : S32.Idx → EReal) (ix1 b) := by
  have hi := idx_whole t
  have he : ((cfg0.win 6).blk t).view.emb (ix2 (0 : Fin 1) b) = ix2 (0 : Fin 1) b := by
    funext d; apply Fin.ext
    match d with
    | ⟨0, _⟩ => show win0_6.index t (0 : Fin 2) * 1 + 1 * 0 = 0; omega
    | ⟨1, _⟩ => show win0_6.index t (1 : Fin 2) * 32 + 1 * b.val = b.val; omega
  show (V m c main_v14 : S1x32.Idx → EReal) (((cfg0.win 6).blk t).view.emb (ix2 (0 : Fin 1) b)) = _
  rw [V_bEmbRow, he]
  unfold bEmbRow
  rw [shapeCast_a_1a_apply]

/-- The input-to-gates bias: the block is the bias as one row. -/
theorem blk_bIh (c : Dev nD) (t : Fin cfg0.N) (b : Fin 1024) :
    (iblk m c 8 t : S1x1024.Idx → EReal) (ix2 (0 : Fin 1) b) = (m ((c : Thread nD τ).loc main_arg8) : S1024.Idx → EReal) (ix1 b) := by
  have hi := idx_whole t
  have he : ((cfg0.win 8).blk t).view.emb (ix2 (0 : Fin 1) b) = ix2 (0 : Fin 1) b := by
    funext d; apply Fin.ext
    match d with
    | ⟨0, _⟩ => show win0_8.index t (0 : Fin 2) * 1 + 1 * 0 = 0; omega
    | ⟨1, _⟩ => show win0_8.index t (1 : Fin 2) * 1024 + 1 * b.val = b.val; omega
  show (V m c main_v15 : S1x1024.Idx → EReal) (((cfg0.win 8).blk t).view.emb (ix2 (0 : Fin 1) b)) = _
  rw [V_bIhRow, he]
  unfold bIhRow
  rw [shapeCast_a_1a_apply]

/-- The hidden-to-gates bias: the block is the bias as one row. -/
theorem blk_bHh (c : Dev nD) (t : Fin cfg0.N) (b : Fin 1024) :
    (iblk m c 10 t : S1x1024.Idx → EReal) (ix2 (0 : Fin 1) b) = (m ((c : Thread nD τ).loc main_arg10) : S1024.Idx → EReal) (ix1 b) := by
  have hi := idx_whole t
  have he : ((cfg0.win 10).blk t).view.emb (ix2 (0 : Fin 1) b) = ix2 (0 : Fin 1) b := by
    funext d; apply Fin.ext
    match d with
    | ⟨0, _⟩ => show win0_10.index t (0 : Fin 2) * 1 + 1 * 0 = 0; omega
    | ⟨1, _⟩ => show win0_10.index t (1 : Fin 2) * 1024 + 1 * b.val = b.val; omega
  show (V m c main_v16 : S1x1024.Idx → EReal) (((cfg0.win 10).blk t).view.emb (ix2 (0 : Fin 1) b)) = _
  rw [V_bHhRow, he]
  unfold bHhRow
  rw [shapeCast_a_1a_apply]

/-- The output bias: the block is the bias as one row. -/
theorem blk_bOut (c : Dev nD) (t : Fin cfg0.N) (b : Fin 32) :
    (iblk m c 12 t : S1x32.Idx → EReal) (ix2 (0 : Fin 1) b) = (m ((c : Thread nD τ).loc main_arg12) : S32.Idx → EReal) (ix1 b) := by
  have hi := idx_whole t
  have he : ((cfg0.win 12).blk t).view.emb (ix2 (0 : Fin 1) b) = ix2 (0 : Fin 1) b := by
    funext d; apply Fin.ext
    match d with
    | ⟨0, _⟩ => show win0_12.index t (0 : Fin 2) * 1 + 1 * 0 = 0; omega
    | ⟨1, _⟩ => show win0_12.index t (1 : Fin 2) * 32 + 1 * b.val = b.val; omega
  show (V m c main_v17 : S1x32.Idx → EReal) (((cfg0.win 12).blk t).view.emb (ix2 (0 : Fin 1) b)) = _
  rw [V_bOutRow, he]
  unfold bOutRow
  rw [shapeCast_a_1a_apply]

end Cert.KernelIdeal.Arr

end
-- ==== Proof.KStages.lean ====
/-
  The kernel body's stored value, cut at its five natural stages. For one 1000-row block: the eight neighbourhood
  features of a row (position, velocity, and the all-rows total minus each), the embedding (a linear map of the
  features, a bias, a rectifier), the four gate pre-activations side by side (two linear maps summed, two biases), the new
  hidden state (the cell update from the four gate slices and the old cell state), and the output (a linear map of the
  new hidden state and a bias). Each stage is the skeleton's own text with the earlier stage as an argument; the stored
  payload is their composition, by unfolding.
-/
import proofs.«128018_j63410897158187_1_alg».proof.Proof.Gen.KernelIdeal.Skeleton

noncomputable section

namespace Cert.KernelIdeal.Stages

open Idealize.ShloMosaic Cert.KernelIdeal Cert.KernelIdeal.Gen

variable {F : FTy → Type} [FloatOps F]

/-- A row's state: its second observation, then the difference of the two observations. -/
def states (o1 o2 : Vec F S1000x2 .f32) : FVec F S1000x4 .f32 :=
  concatenate S1000x4 1 [⟨S1000x2, o2⟩, ⟨S1000x2, subf o2 o1⟩] concatenates_S1000x2_S1000x2_S1000x4_d1

/-- A row's eight features: its state, then the total row minus its state. -/
def feats (tot : Vec F S1x4 .f32) (o1 o2 : Vec F S1000x2 .f32) : FVec F S1000x8 .f32 :=
  concatenate S1000x8 1 [⟨S1000x4, states o1 o2⟩,
    ⟨S1000x4, subf (broadcastTo S1000x4 (shapeCast S1x4 tot shapeCasts_S1x4_S1x4) broadcasts_S1x4_S1000x4) (states o1 o2)⟩]
    concatenates_S1000x4_S1000x4_S1000x8_d1

/-- The embedding: the features through the embedding weights, plus the bias, rectified at zero. -/
def embed (ft : FVec F S1000x8 .f32) (we : Vec F S8x32 .bf16) (be : Vec F S1x32 .f32) : FVec F S1000x32 .f32 :=
  maximumf
    (addf (matmul dot_S1000x8_S8x32_S1000x32_1_0_0_1_n_n none (truncf .bf16 ft bitsLt_bf16_f32) (shapeCast S8x32 we shapeCasts_S8x32_S8x32)
        (constant S1000x32 .f32 0x00000000#32))
      (broadcastTo S1000x32 (shapeCast S1x32 be shapeCasts_S1x32_S1x32) broadcasts_S1x32_S1000x32))
    (broadcast S1000x32 (Scalar.ofBits .f32 0x00000000#32))

/-- The four gates' pre-activations: embedding and hidden state through their weights, summed, plus the two biases. -/
def gates (em : FVec F S1000x32 .f32) (hb : Vec F S1000x256 .f32) (wih : Vec F S32x1024 .bf16) (whh : Vec F S256x1024 .bf16)
    (bih bhh : Vec F S1x1024 .f32) : FVec F S1000x1024 .f32 :=
  addf
    (addf
      (addf
        (matmul dot_S1000x32_S32x1024_S1000x1024_1_0_0_1_n_n none (truncf .bf16 em bitsLt_bf16_f32)
          (shapeCast S32x1024 wih shapeCasts_S32x1024_S32x1024) (constant S1000x1024 .f32 0x00000000#32))
        (matmul dot_S1000x256_S256x1024_S1000x1024_1_0_0_1_n_n none (truncf .bf16 hb bitsLt_bf16_f32)
          (shapeCast S256x1024 whh shapeCasts_S256x1024_S256x1024) (constant S1000x1024 .f32 0x00000000#32)))
      (broadcastTo S1000x1024 (shapeCast S1x1024 bih shapeCasts_S1x1024_S1x1024) broadcasts_S1x1024_S1000x1024))
    (broadcastTo S1000x1024 (shapeCast S1x1024 bhh shapeCasts_S1x1024_S1x1024) broadcasts_S1x1024_S1000x1024)

/-- The new hidden state from the four gate slices (input, forget, cell, output) and the old cell state. -/
def hidden (g : FVec F S1000x1024 .f32) (cb : Vec F S1000x256 .f32) : FVec F S1000x256 .f32 :=
  mulf (logistic (extractStridedSlice S1000x256 ![0, 768] g slices_S1000x1024_o0_768_S1000x256))
    (tanh (addf
      (mulf (logistic (extractStridedSlice S1000x256 ![0, 256] g slices_S1000x1024_o0_256_S1000x256)) cb)
      (mulf (logistic (extractStridedSlice S1000x256 ![0, 0] g slices_S1000x1024_o0_0_S1000x256))
        (tanh (extractStridedSlice S1000x256 ![0, 512] g slices_S1000x1024_o0_512_S1000x256)))))

/-- The output: the new hidden state through the output weights, plus the bias. -/
def output (hn : FVec F S1000x256 .f32) (wo : Vec F S256x32 .bf16) (bo : Vec F S1x32 .f32) : FVec F S1000x32 .f32 :=
  addf
    (matmul dot_S1000x256_S256x32_S1000x32_1_0_0_1_n_n none (truncf .bf16 hn bitsLt_bf16_f32) (shapeCast S256x32 wo shapeCasts_S256x32_S256x32)
      (constant S1000x32 .f32 0x00000000#32))
    (broadcastTo S1000x32 (shapeCast S1x32 bo shapeCasts_S1x32_S1x32) broadcasts_S1x32_S1000x32)

/-- The stored payload is the five stages composed. -/
theorem payload_eq (tot : Vec F S1x4 .f32) (o1 o2 : Vec F S1000x2 .f32) (hb cb : Vec F S1000x256 .f32) (we : Vec F S8x32 .bf16)
    (be : Vec F S1x32 .f32) (wih : Vec F S32x1024 .bf16) (bih : Vec F S1x1024 .f32) (whh : Vec F S256x1024 .bf16)
    (bhh : Vec F S1x1024 .f32) (wo : Vec F S256x32 .bf16) (bo : Vec F S1x32 .f32) :
    k0_pay1 (k0_pay2 o1 o2 tot we be hb wih whh bih) (k0_pay3 bhh) cb wo bo
      = output (hidden (gates (embed (feats tot o1 o2) we be) hb wih whh bih bhh) cb) wo bo := rfl

end Cert.KernelIdeal.Stages

end
-- ==== Proof.LibIx2.lean ====
/-
  Rank-two arrays read at an index given by its two coordinates, for three operations whose library lemmas ask for
  the operand index and a per-axis obligation: a concatenation of two arrays along the columns (an entry comes from
  the left piece when its column is inside the left piece's width, from the right piece, shifted, otherwise), a
  broadcast of a one-row array down the rows (every row is that row), and a matrix product into a zero accumulator
  with one contracted axis (entry (r, o) is the sum over k of lhs (r, k) · rhs (k, o) at the ideal instance). Generic
  in every extent; the matrix product takes the four facts about its dimension numbers as hypotheses, since they are
  decided on a concrete record.
-/
import Idealize.ShloMosaic.Lib.ValueIdx
import Idealize.ShloMosaic.Lib.Pipeline.Value
import Idealize.ShloMosaic.PureOps.Ideal.Laws

noncomputable section

namespace Idealize.ShloMosaic.Ix2

open Idealize.ShloMosaic Idealize.ShloMosaic.ValueIdx

variable {α : Type}

/-- Column `j` of a two-piece concatenation along the columns, when `j` lies inside the left piece: the left piece's
    entry at the same row and column. -/
theorem concat_cols_left {R a b c : Nat} (x : (⟨2, ![R, a]⟩ : Shape).Idx → α) (y : (⟨2, ![R, b]⟩ : Shape).Idx → α)
    (h : Shape.Concatenates [(⟨2, ![R, a]⟩ : Shape), (⟨2, ![R, b]⟩ : Shape)] (⟨2, ![R, c]⟩ : Shape) 1)
    (r : Fin R) (j : Fin c) (j' : Fin a) (hj : j'.val = j.val) :
    concatenate (⟨2, ![R, c]⟩ : Shape) 1 [⟨(⟨2, ![R, a]⟩ : Shape), x⟩, ⟨(⟨2, ![R, b]⟩ : Shape), y⟩] h (ix2 r j) = x (ix2 r j') :=
  concatenate_pair_apply_left 1 x y h (ix2 r j) rfl (ix2 r j') (fun d => match d with
    | ⟨0, _⟩ => rfl
    | ⟨1, _⟩ => hj)

/-- Column `j` of a two-piece concatenation along the columns, when `j` lies past the left piece: the right piece's
    entry at the same row, the column moved back by the left piece's width. -/
theorem concat_cols_right {R a b c : Nat} (x : (⟨2, ![R, a]⟩ : Shape).Idx → α) (y : (⟨2, ![R, b]⟩ : Shape).Idx → α)
    (h : Shape.Concatenates [(⟨2, ![R, a]⟩ : Shape), (⟨2, ![R, b]⟩ : Shape)] (⟨2, ![R, c]⟩ : Shape) 1)
    (r : Fin R) (j : Fin c) (j' : Fin b) (hj : j'.val + a = j.val) :
    concatenate (⟨2, ![R, c]⟩ : Shape) 1 [⟨(⟨2, ![R, a]⟩ : Shape), x⟩, ⟨(⟨2, ![R, b]⟩ : Shape), y⟩] h (ix2 r j) = y (ix2 r j') :=
  concatenate_pair_apply_right 1 x y h (ix2 r j) rfl rfl (ix2 r j') (fun d hd => match d, hd with
    | ⟨0, _⟩, _ => rfl
    | ⟨1, _⟩, hd => absurd rfl hd) hj

/-- A one-row array broadcast down `R` rows: row `r`, column `j` is the one row's column `j`. -/
theorem bcast_row {R C : Nat} (x : (⟨2, ![1, C]⟩ : Shape).Idx → α)
    (h : (⟨2, ![1, C]⟩ : Shape).Broadcasts (⟨2, ![R, C]⟩ : Shape)) (r : Fin R) (j : Fin C) :
    broadcastTo (⟨2, ![R, C]⟩ : Shape) x h (ix2 r j) = x (ix2 (0 : Fin 1) j) :=
  broadcastTo_apply x h (ix2 r j) (ix2 (0 : Fin 1) j) (fun d => match d with
    | ⟨0, _⟩ => by
        show (0 : Nat) = if (1 : Nat) = 1 then 0 else _
        rw [if_pos rfl]
    | ⟨1, _⟩ => by
        show j.val = if C = 1 then 0 else j.val
        split
        · have := j.isLt; omega
        · rfl)

/-- A matrix product into a zero accumulator, one contracted axis (the left operand's columns against the right
    operand's rows), at the ideal instance: entry (r, o) is `∑ k, lhs (r, k) * rhs (k, o)`. The four hypotheses say
    which coordinate of the result or of the contraction position each operand axis reads. -/
theorem matmul_zero_apply {R K C : Nat} {φ₁ φ₂ : FTy}
    (d : DotDims (⟨2, ![R, K]⟩ : Shape) (⟨2, ![K, C]⟩ : Shape) (⟨2, ![R, C]⟩ : Shape)) (prec : Option ContractPrecision)
    (hr : d.contr.rank = 1) (hs : d.contr.size ⟨0, by omega⟩ = K)
    (hl0 : ∀ (i : (⟨2, ![R, C]⟩ : Shape).Idx) (q : d.contr.Idx), (d.lhsIdx i q 0).val = (i 0).val)
    (hl1 : ∀ (i : (⟨2, ![R, C]⟩ : Shape).Idx) (q : d.contr.Idx), (d.lhsIdx i q 1).val = (q ⟨0, by omega⟩).val)
    (hr0 : ∀ (i : (⟨2, ![R, C]⟩ : Shape).Idx) (q : d.contr.Idx), (d.rhsIdx i q 0).val = (q ⟨0, by omega⟩).val)
    (hr1 : ∀ (i : (⟨2, ![R, C]⟩ : Shape).Idx) (q : d.contr.Idx), (d.rhsIdx i q 1).val = (i 1).val)
    (lhs : FVec Ideal (⟨2, ![R, K]⟩ : Shape) φ₁) (rhs : FVec Ideal (⟨2, ![K, C]⟩ : Shape) φ₂) (r : Fin R) (o : Fin C) :
    FloatOps.matmul d prec lhs rhs (constant (⟨2, ![R, C]⟩ : Shape) .f32 0x00000000#32) (ix2 r o)
      = ∑ k : Fin K, lhs (ix2 r k) * rhs (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 r o) ((contrEquiv1 d K hr hs).symm k) = ix2 r k := funext fun a => Fin.ext (by
    match a with
    | ⟨0, _⟩ => exact hl0 _ _
    | ⟨1, _⟩ => exact (hl1 _ _).trans hk)
  have er : d.rhsIdx (ix2 r o) ((contrEquiv1 d K hr hs).symm k) = ix2 k o := funext fun a => Fin.ext (by
    match a with
    | ⟨0, _⟩ => exact (hr0 _ _).trans hk
    | ⟨1, _⟩ => exact hr1 _ _)
  rw [el, er]

end Idealize.ShloMosaic.Ix2

end
-- ==== Proof.BrFeats.lean ====
/-
  Row r of a block against row n of the whole arrays, first two stages. If the block's two observation rows are the
  arrays' rows n, the block's state row (second observation, then the difference) is the reference's state row n:
  a column below two comes from the left piece on both sides, a column from two on from the difference. If moreover the
  block's total row is the reference's total row, the eight features agree: the state, then total minus state.
-/
import proofs.«128018_j63410897158187_1_alg».proof.Proof.KStages
import proofs.«128018_j63410897158187_1_alg».proof.Proof.RefRead
import proofs.«128018_j63410897158187_1_alg».proof.Proof.LibIx2

noncomputable section

namespace Cert.Bridge

open Idealize.ShloMosaic Idealize.ShloMosaic.ValueIdx Cert.KernelIdeal.Stages Cert.ReferenceIdeal.ReadP
open Cert.KernelIdeal (S1000x2 S1000x4 S1000x8 S1000x32 S1000x256 S1000x1024 S1x4 S8x32 S1x32 S32x1024 S1x1024 S256x1024 S256x32)
open Cert.ReferenceIdeal (S100000x2 S100000x4 S100000x8 S100000x32 S100000x256 S100000x1024 S32x8 S32 S1024x32 S1024 S1024x256 S32x256)
open Cert.KernelIdeal.Gen Cert.ReferenceIdeal.Gen

/-- The state row: columns 0, 1 the second observation, columns 2, 3 the difference of the observations. -/
theorem states_row (x0 x1 : FVec Ideal S100000x2 .f32) (o1 o2 : Vec Ideal S1000x2 .f32) (r : Fin 1000) (n : Fin 100000)
    (ho1 : ∀ j : Fin 2, o1 (ix2 r j) = x0 (ix2 n j)) (ho2 : ∀ j : Fin 2, o2 (ix2 r j) = x1 (ix2 n j)) (j : Fin 4) :
    states o1 o2 (ix2 r j) = val_main_v1 (F := Ideal) x0 x1 (ix2 n j) := by
  unfold states val_main_v1
  rcases Nat.lt_or_ge j.val 2 with h | h
  · rw [Ix2.concat_cols_left _ _ _ r j ⟨j.val, h⟩ rfl, Ix2.concat_cols_left _ _ _ n j ⟨j.val, h⟩ rfl]
    exact ho2 _
  · have h' : j.val - 2 < 2 := by have := j.isLt; omega
    rw [Ix2.concat_cols_right _ _ _ r j ⟨j.val - 2, h'⟩ (by show j.val - 2 + 2 = j.val; omega),
      Ix2.concat_cols_right _ _ _ n j ⟨j.val - 2, h'⟩ (by show j.val - 2 + 2 = j.val; omega)]
    show FloatOps.subf (o2 _) (o1 _) = FloatOps.subf (x1 _) (x0 _)
    rw [ho1, ho2]

/-- The feature row: columns 0 … 3 the state, columns 4 … 7 the total row minus the state. -/
theorem feats_row (x0 x1 : FVec Ideal S100000x2 .f32) (tot : Vec Ideal S1x4 .f32) (o1 o2 : Vec Ideal S1000x2 .f32)
    (r : Fin 1000) (n : Fin 100000)
    (ho1 : ∀ j : Fin 2, o1 (ix2 r j) = x0 (ix2 n j)) (ho2 : ∀ j : Fin 2, o2 (ix2 r j) = x1 (ix2 n j))
    (htot : ∀ j : Fin 4, tot (ix2 (0 : Fin 1) j) = val_main_v3 (F := Ideal) x0 x1 (ix2 (0 : Fin 1) j)) (k : Fin 8) :
    feats tot o1 o2 (ix2 r k) = val_main_v6 (F := Ideal) x0 x1 (ix2 n k) := by
  unfold feats val_main_v6
  rcases Nat.lt_or_ge k.val 4 with h | h
  · rw [Ix2.concat_cols_left _ _ _ r k ⟨k.val, h⟩ rfl, Ix2.concat_cols_left _ _ _ n k ⟨k.val, h⟩ rfl]
    exact states_row x0 x1 o1 o2 r n ho1 ho2 _
  · have h' : k.val - 4 < 4 := by have := k.isLt; omega
    rw [Ix2.concat_cols_right _ _ _ r k ⟨k.val - 4, h'⟩ (by show k.val - 4 + 4 = k.val; omega),
      Ix2.concat_cols_right _ _ _ n k ⟨k.val - 4, h'⟩ (by show k.val - 4 + 4 = k.val; omega)]
    have e4 : idx_main_v4 (ix2 n (⟨k.val - 4, h'⟩ : Fin 4)) = ix2 (0 : Fin 1) (⟨k.val - 4, h'⟩ : Fin 4) :=
      funext fun a => by match a with | ⟨0, _⟩ => rfl | ⟨1, _⟩ => rfl
    rw [val_main_v5_apply, val_main_v4_apply, e4, ← htot, ← states_row x0 x1 o1 o2 r n ho1 ho2]
    rw [subf_apply, Ix2.bcast_row, shapeCast_self]
    rfl

end Cert.Bridge

end
-- ==== Proof.KDots.lean ====
/-
  The kernel's four matrix products, each into a zero accumulator with the left operand's columns contracted against
  the right operand's rows, read at an entry of a 1000-row block at the ideal instance: entry (r, o) is the sum over
  k of lhs (r, k) · rhs (k, o). Per product, the four facts about which coordinate each operand axis reads are decided
  on its dimension numbers; the sum itself is the general lemma.
-/
import proofs.«128018_j63410897158187_1_alg».proof.Proof.Gen.KernelIdeal
import proofs.«128018_j63410897158187_1_alg».proof.Proof.LibIx2

noncomputable section

namespace Cert.KernelIdeal.Dots

open Idealize.ShloMosaic Idealize.ShloMosaic.ValueIdx Cert.KernelIdeal Cert.KernelIdeal.Gen

/-! ### the eight neighbourhood features against the embedding weights -/

theorem emb_l0 (i : S1000x32.Idx) (q : dot_S1000x8_S8x32_S1000x32_1_0_0_1_n_n.contr.Idx) : (dot_S1000x8_S8x32_S1000x32_1_0_0_1_n_n.lhsIdx i q 0).val = (i 0).val := by
  unfold DotDims.lhsIdx
  rw [dif_neg (show ¬(0 : Fin S1000x8.rank) ∈ dot_S1000x8_S8x32_S1000x32_1_0_0_1_n_n.lhsBatch by decide), dif_pos (show (0 : Fin S1000x8.rank) ∈ dot_S1000x8_S8x32_S1000x32_1_0_0_1_n_n.lhsNonContracting by decide)]
  rfl
theorem emb_l1 (i : S1000x32.Idx) (q : dot_S1000x8_S8x32_S1000x32_1_0_0_1_n_n.contr.Idx) : (dot_S1000x8_S8x32_S1000x32_1_0_0_1_n_n.lhsIdx i q 1).val = (q ⟨0, by decide⟩).val :=
  dot_S1000x8_S8x32_S1000x32_1_0_0_1_n_n.lhsIdx_val_of_single rfl i q
theorem emb_r0 (i : S1000x32.Idx) (q : dot_S1000x8_S8x32_S1000x32_1_0_0_1_n_n.contr.Idx) : (dot_S1000x8_S8x32_S1000x32_1_0_0_1_n_n.rhsIdx i q 0).val = (q ⟨0, by decide⟩).val :=
  dot_S1000x8_S8x32_S1000x32_1_0_0_1_n_n.rhsIdx_val_of_single rfl i q
theorem emb_r1 (i : S1000x32.Idx) (q : dot_S1000x8_S8x32_S1000x32_1_0_0_1_n_n.contr.Idx) : (dot_S1000x8_S8x32_S1000x32_1_0_0_1_n_n.rhsIdx i q 1).val = (i 1).val := by
  unfold DotDims.rhsIdx
  rw [dif_neg (show ¬(1 : Fin S8x32.rank) ∈ dot_S1000x8_S8x32_S1000x32_1_0_0_1_n_n.rhsBatch by decide), dif_pos (show (1 : Fin S8x32.rank) ∈ dot_S1000x8_S8x32_S1000x32_1_0_0_1_n_n.rhsNonContracting by decide)]
  rfl

/-- Entry (r, o) of the product of the eight neighbourhood features against the embedding weights. -/
theorem matmul_emb (lhs : FVec Ideal S1000x8 .bf16) (rhs : FVec Ideal S8x32 .bf16) (r : Fin 1000) (o : Fin 32) :
    matmul dot_S1000x8_S8x32_S1000x32_1_0_0_1_n_n none lhs rhs (constant S1000x32 .f32 0x00000000#32) (ix2 r o)
      = ∑ k : Fin 8, lhs (ix2 r k) * rhs (ix2 k o) :=
  Ix2.matmul_zero_apply dot_S1000x8_S8x32_S1000x32_1_0_0_1_n_n none rfl rfl emb_l0 emb_l1 emb_r0 emb_r1 lhs rhs r o

/-! ### the embedding against the input-to-gates weights -/

theorem ih_l0 (i : S1000x1024.Idx) (q : dot_S1000x32_S32x1024_S1000x1024_1_0_0_1_n_n.contr.Idx) : (dot_S1000x32_S32x1024_S1000x1024_1_0_0_1_n_n.lhsIdx i q 0).val = (i 0).val := by
  unfold DotDims.lhsIdx
  rw [dif_neg (show ¬(0 : Fin S1000x32.rank) ∈ dot_S1000x32_S32x1024_S1000x1024_1_0_0_1_n_n.lhsBatch by decide), dif_pos (show (0 : Fin S1000x32.rank) ∈ dot_S1000x32_S32x1024_S1000x1024_1_0_0_1_n_n.lhsNonContracting by decide)]
  rfl
theorem ih_l1 (i : S1000x1024.Idx) (q : dot_S1000x32_S32x1024_S1000x1024_1_0_0_1_n_n.contr.Idx) : (dot_S1000x32_S32x1024_S1000x1024_1_0_0_1_n_n.lhsIdx i q 1).val = (q ⟨0, by decide⟩).val :=
  dot_S1000x32_S32x1024_S1000x1024_1_0_0_1_n_n.lhsIdx_val_of_single rfl i q
theorem ih_r0 (i : S1000x1024.Idx) (q : dot_S1000x32_S32x1024_S1000x1024_1_0_0_1_n_n.contr.Idx) : (dot_S1000x32_S32x1024_S1000x1024_1_0_0_1_n_n.rhsIdx i q 0).val = (q ⟨0, by decide⟩).val :=
  dot_S1000x32_S32x1024_S1000x1024_1_0_0_1_n_n.rhsIdx_val_of_single rfl i q
theorem ih_r1 (i : S1000x1024.Idx) (q : dot_S1000x32_S32x1024_S1000x1024_1_0_0_1_n_n.contr.Idx) : (dot_S1000x32_S32x1024_S1000x1024_1_0_0_1_n_n.rhsIdx i q 1).val = (i 1).val := by
  unfold DotDims.rhsIdx
  rw [dif_neg (show ¬(1 : Fin S32x1024.rank) ∈ dot_S1000x32_S32x1024_S1000x1024_1_0_0_1_n_n.rhsBatch by decide), dif_pos (show (1 : Fin S32x1024.rank) ∈ dot_S1000x32_S32x1024_S1000x1024_1_0_0_1_n_n.rhsNonContracting by decide)]
  rfl

/-- Entry (r, o) of the product of the embedding against the input-to-gates weights. -/
theorem matmul_ih (lhs : FVec Ideal S1000x32 .bf16) (rhs : FVec Ideal S32x1024 .bf16) (r : Fin 1000) (o : Fin 1024) :
    matmul dot_S1000x32_S32x1024_S1000x1024_1_0_0_1_n_n none lhs rhs (constant S1000x1024 .f32 0x00000000#32) (ix2 r o)
      = ∑ k : Fin 32, lhs (ix2 r k) * rhs (ix2 k o) :=
  Ix2.matmul_zero_apply dot_S1000x32_S32x1024_S1000x1024_1_0_0_1_n_n none rfl rfl ih_l0 ih_l1 ih_r0 ih_r1 lhs rhs r o

/-! ### the hidden state against the hidden-to-gates weights -/

theorem hh_l0 (i : S1000x1024.Idx) (q : dot_S1000x256_S256x1024_S1000x1024_1_0_0_1_n_n.contr.Idx) : (dot_S1000x256_S256x1024_S1000x1024_1_0_0_1_n_n.lhsIdx i q 0).val = (i 0).val := by
  unfold DotDims.lhsIdx
  rw [dif_neg (show ¬(0 : Fin S1000x256.rank) ∈ dot_S1000x256_S256x1024_S1000x1024_1_0_0_1_n_n.lhsBatch by decide), dif_pos (show (0 : Fin S1000x256.rank) ∈ dot_S1000x256_S256x1024_S1000x1024_1_0_0_1_n_n.lhsNonContracting by decide)]
  rfl
theorem hh_l1 (i : S1000x1024.Idx) (q : dot_S1000x256_S256x1024_S1000x1024_1_0_0_1_n_n.contr.Idx) : (dot_S1000x256_S256x1024_S1000x1024_1_0_0_1_n_n.lhsIdx i q 1).val = (q ⟨0, by decide⟩).val :=
  dot_S1000x256_S256x1024_S1000x1024_1_0_0_1_n_n.lhsIdx_val_of_single rfl i q
theorem hh_r0 (i : S1000x1024.Idx) (q : dot_S1000x256_S256x1024_S1000x1024_1_0_0_1_n_n.contr.Idx) : (dot_S1000x256_S256x1024_S1000x1024_1_0_0_1_n_n.rhsIdx i q 0).val = (q ⟨0, by decide⟩).val :=
  dot_S1000x256_S256x1024_S1000x1024_1_0_0_1_n_n.rhsIdx_val_of_single rfl i q
theorem hh_r1 (i : S1000x1024.Idx) (q : dot_S1000x256_S256x1024_S1000x1024_1_0_0_1_n_n.contr.Idx) : (dot_S1000x256_S256x1024_S1000x1024_1_0_0_1_n_n.rhsIdx i q 1).val = (i 1).val := by
  unfold DotDims.rhsIdx
  rw [dif_neg (show ¬(1 : Fin S256x1024.rank) ∈ dot_S1000x256_S256x1024_S1000x1024_1_0_0_1_n_n.rhsBatch by decide), dif_pos (show (1 : Fin S256x1024.rank) ∈ dot_S1000x256_S256x1024_S1000x1024_1_0_0_1_n_n.rhsNonContracting by decide)]
  rfl

/-- Entry (r, o) of the product of the hidden state against the hidden-to-gates weights. -/
theorem matmul_hh (lhs : FVec Ideal S1000x256 .bf16) (rhs : FVec Ideal S256x1024 .bf16) (r : Fin 1000) (o : Fin 1024) :
    matmul dot_S1000x256_S256x1024_S1000x1024_1_0_0_1_n_n none lhs rhs (constant S1000x1024 .f32 0x00000000#32) (ix2 r o)
      = ∑ k : Fin 256, lhs (ix2 r k) * rhs (ix2 k o) :=
  Ix2.matmul_zero_apply dot_S1000x256_S256x1024_S1000x1024_1_0_0_1_n_n none rfl rfl hh_l0 hh_l1 hh_r0 hh_r1 lhs rhs r o

/-! ### the new hidden state against the output weights -/

theorem out_l0 (i : S1000x32.Idx) (q : dot_S1000x256_S256x32_S1000x32_1_0_0_1_n_n.contr.Idx) : (dot_S1000x256_S256x32_S1000x32_1_0_0_1_n_n.lhsIdx i q 0).val = (i 0).val := by
  unfold DotDims.lhsIdx
  rw [dif_neg (show ¬(0 : Fin S1000x256.rank) ∈ dot_S1000x256_S256x32_S1000x32_1_0_0_1_n_n.lhsBatch by decide), dif_pos (show (0 : Fin S1000x256.rank) ∈ dot_S1000x256_S256x32_S1000x32_1_0_0_1_n_n.lhsNonContracting by decide)]
  rfl
theorem out_l1 (i : S1000x32.Idx) (q : dot_S1000x256_S256x32_S1000x32_1_0_0_1_n_n.contr.Idx) : (dot_S1000x256_S256x32_S1000x32_1_0_0_1_n_n.lhsIdx i q 1).val = (q ⟨0, by decide⟩).val :=
  dot_S1000x256_S256x32_S1000x32_1_0_0_1_n_n.lhsIdx_val_of_single rfl i q
theorem out_r0 (i : S1000x32.Idx) (q : dot_S1000x256_S256x32_S1000x32_1_0_0_1_n_n.contr.Idx) : (dot_S1000x256_S256x32_S1000x32_1_0_0_1_n_n.rhsIdx i q 0).val = (q ⟨0, by decide⟩).val :=
  dot_S1000x256_S256x32_S1000x32_1_0_0_1_n_n.rhsIdx_val_of_single rfl i q
theorem out_r1 (i : S1000x32.Idx) (q : dot_S1000x256_S256x32_S1000x32_1_0_0_1_n_n.contr.Idx) : (dot_S1000x256_S256x32_S1000x32_1_0_0_1_n_n.rhsIdx i q 1).val = (i 1).val := by
  unfold DotDims.rhsIdx
  rw [dif_neg (show ¬(1 : Fin S256x32.rank) ∈ dot_S1000x256_S256x32_S1000x32_1_0_0_1_n_n.rhsBatch by decide), dif_pos (show (1 : Fin S256x32.rank) ∈ dot_S1000x256_S256x32_S1000x32_1_0_0_1_n_n.rhsNonContracting by decide)]
  rfl

/-- Entry (r, o) of the product of the new hidden state against the output weights. -/
theorem matmul_out (lhs : FVec Ideal S1000x256 .bf16) (rhs : FVec Ideal S256x32 .bf16) (r : Fin 1000) (o : Fin 32) :
    matmul dot_S1000x256_S256x32_S1000x32_1_0_0_1_n_n none lhs rhs (constant S1000x32 .f32 0x00000000#32) (ix2 r o)
      = ∑ k : Fin 256, lhs (ix2 r k) * rhs (ix2 k o) :=
  Ix2.matmul_zero_apply dot_S1000x256_S256x32_S1000x32_1_0_0_1_n_n none rfl rfl out_l0 out_l1 out_r0 out_r1 lhs rhs r o

end Cert.KernelIdeal.Dots

end
-- ==== Proof.BrEmbed.lean ====
/-
  Row r of a block against row n of the whole arrays, the embedding. If the block's feature row is the reference's feature
  row n, the block's weights are the transposed embedding weights and its bias row is the bias, then entry e of the
  embedding agrees: both are max (∑ₖ feature k · W[e, k] + b[e], 0). A change of float format is the identity here.
-/
import proofs.«128018_j63410897158187_1_alg».proof.Proof.KStages
import proofs.«128018_j63410897158187_1_alg».proof.Proof.RefRead
import proofs.«128018_j63410897158187_1_alg».proof.Proof.LibIx2
import proofs.«128018_j63410897158187_1_alg».proof.Proof.KDots

noncomputable section

namespace Cert.Bridge

open Idealize.ShloMosaic Idealize.ShloMosaic.ValueIdx Cert.KernelIdeal.Stages Cert.ReferenceIdeal.ReadP
open Cert.KernelIdeal (S1000x2 S1000x4 S1000x8 S1000x32 S1000x256 S1000x1024 S1x4 S8x32 S1x32 S32x1024 S1x1024 S256x1024 S256x32)
open Cert.ReferenceIdeal (S100000x2 S100000x4 S100000x8 S100000x32 S100000x256 S100000x1024 S32x8 S32 S1024x32 S1024 S1024x256 S32x256)
open Cert.KernelIdeal.Gen Cert.ReferenceIdeal.Gen

open Cert.KernelIdeal.Dots

/-- The embedding row. -/
theorem embed_row (x0 x1 : FVec Ideal S100000x2 .f32) (x5 : FVec Ideal S32x8 .f32) (x6 : FVec Ideal S32 .f32)
    (ft : FVec Ideal S1000x8 .f32) (we : Vec Ideal S8x32 .bf16) (be : Vec Ideal S1x32 .f32) (r : Fin 1000) (n : Fin 100000)
    (hft : ∀ k : Fin 8, ft (ix2 r k) = val_main_v6 (F := Ideal) x0 x1 (ix2 n k))
    (hwe : ∀ (k : Fin 8) (e : Fin 32), we (ix2 k e) = x5 (ix2 e k))
    (hbe : ∀ e : Fin 32, be (ix2 (0 : Fin 1) e) = x6 (ix1 e)) (e : Fin 32) :
    embed ft we be (ix2 r e) = val_main_v12 (F := Ideal) x0 x1 x5 x6 (ix2 n e) := by
  have el : ∀ k : Fin 8, lidx_main_v8 (ix2 n e) k = ix2 n k := fun k => funext fun a => by
    match a with | ⟨0, _⟩ => rfl | ⟨1, _⟩ => rfl
  have er : ∀ k : Fin 8, idx_main_v7 (ridx_main_v8 (ix2 n e) k) = ix2 e k := fun k => funext fun a => by
    match a with | ⟨0, _⟩ => rfl | ⟨1, _⟩ => rfl
  have eb : idx_main_v9 (idx_main_v10 (ix2 n e)) = ix1 e := funext fun a => by
    match a with | ⟨0, _⟩ => rfl
  rw [val_main_v12_apply, val_main_v11_apply, val_main_v8_apply, val_main_v10_apply, val_main_v9_apply, val_main_call0_v0_apply,
    val_main_call0_cst_apply, eb, ← hbe]
  simp only [val_main_v7_apply, el, er, ← hft, ← hwe]
  unfold embed
  simp only [maximumf_apply, addf_apply, matmul_emb, truncf_apply, shapeCast_self, Ix2.bcast_row, broadcast_apply]
  rfl

end Cert.Bridge

end
-- ==== Proof.BrGates.lean ====
/-
  Row r of a block against row n of the whole arrays, the gates. If the block's embedding row and hidden-state row are
  the reference's rows n, its two weight blocks are the transposed weights and its two bias rows the biases, then gate
  column g agrees: the kernel adds the two products first and then the two biases, the reference adds the first bias
  between the two products; addition of extended reals is commutative and associative, so the two sums are one.
-/
import proofs.«128018_j63410897158187_1_alg».proof.Proof.KStages
import proofs.«128018_j63410897158187_1_alg».proof.Proof.RefRead
import proofs.«128018_j63410897158187_1_alg».proof.Proof.LibIx2
import proofs.«128018_j63410897158187_1_alg».proof.Proof.KDots

noncomputable section

namespace Cert.Bridge

open Idealize.ShloMosaic Idealize.ShloMosaic.ValueIdx Cert.KernelIdeal.Stages Cert.ReferenceIdeal.ReadP
open Cert.KernelIdeal (S1000x2 S1000x4 S1000x8 S1000x32 S1000x256 S1000x1024 S1x4 S8x32 S1x32 S32x1024 S1x1024 S256x1024 S256x32)
open Cert.ReferenceIdeal (S100000x2 S100000x4 S100000x8 S100000x32 S100000x256 S100000x1024 S32x8 S32 S1024x32 S1024 S1024x256 S32x256)
open Cert.KernelIdeal.Gen Cert.ReferenceIdeal.Gen

open Cert.KernelIdeal.Dots

/-- The gates row. -/
theorem gates_row (x0 x1 : FVec Ideal S100000x2 .f32) (x2 : FVec Ideal S100000x256 .f32) (x5 : FVec Ideal S32x8 .f32) (x6 : FVec Ideal S32 .f32)
    (x7 : FVec Ideal S1024x32 .f32) (x8 : FVec Ideal S1024 .f32) (x9 : FVec Ideal S1024x256 .f32) (x10 : FVec Ideal S1024 .f32)
    (em : FVec Ideal S1000x32 .f32) (hb : Vec Ideal S1000x256 .f32) (wih : Vec Ideal S32x1024 .bf16) (whh : Vec Ideal S256x1024 .bf16)
    (bih bhh : Vec Ideal S1x1024 .f32) (r : Fin 1000) (n : Fin 100000)
    (hem : ∀ e : Fin 32, em (ix2 r e) = val_main_v12 (F := Ideal) x0 x1 x5 x6 (ix2 n e))
    (hhb : ∀ d : Fin 256, hb (ix2 r d) = x2 (ix2 n d))
    (hwih : ∀ (e : Fin 32) (g : Fin 1024), wih (ix2 e g) = x7 (ix2 g e))
    (hwhh : ∀ (d : Fin 256) (g : Fin 1024), whh (ix2 d g) = x9 (ix2 g d))
    (hbih : ∀ g : Fin 1024, bih (ix2 (0 : Fin 1) g) = x8 (ix1 g))
    (hbhh : ∀ g : Fin 1024, bhh (ix2 (0 : Fin 1) g) = x10 (ix1 g)) (g : Fin 1024) :
    gates em hb wih whh bih bhh (ix2 r g) = val_main_v23 (F := Ideal) x0 x1 x2 x5 x6 x7 x8 x9 x10 (ix2 n g) := by
  have el14 : ∀ k : Fin 32, lidx_main_v14 (ix2 n g) k = ix2 n k := fun k => funext fun a => by
    match a with | ⟨0, _⟩ => rfl | ⟨1, _⟩ => rfl
  have er14 : ∀ k : Fin 32, idx_main_v13 (ridx_main_v14 (ix2 n g) k) = ix2 g k := fun k => funext fun a => by
    match a with | ⟨0, _⟩ => rfl | ⟨1, _⟩ => rfl
  have el19 : ∀ k : Fin 256, lidx_main_v19 (ix2 n g) k = ix2 n k := fun k => funext fun a => by
    match a with | ⟨0, _⟩ => rfl | ⟨1, _⟩ => rfl
  have er19 : ∀ k : Fin 256, idx_main_v18 (ridx_main_v19 (ix2 n g) k) = ix2 g k := fun k => funext fun a => by
    match a with | ⟨0, _⟩ => rfl | ⟨1, _⟩ => rfl
  have eb16 : idx_main_v15 (idx_main_v16 (ix2 n g)) = ix1 g := funext fun a => by
    match a with | ⟨0, _⟩ => rfl
  have eb22 : idx_main_v21 (idx_main_v22 (ix2 n g)) = ix1 g := funext fun a => by
    match a with | ⟨0, _⟩ => rfl
  rw [val_main_v23_apply, val_main_v20_apply, val_main_v17_apply, val_main_v14_apply, val_main_v19_apply, val_main_v16_apply,
    val_main_v15_apply, val_main_v22_apply, val_main_v21_apply, eb16, eb22, ← hbih, ← hbhh]
  simp only [val_main_v13_apply, val_main_v18_apply, el14, er14, el19, er19, ← hem, ← hhb, ← hwih, ← hwhh]
  unfold gates
  simp only [addf_apply, matmul_ih, matmul_hh, truncf_apply, shapeCast_self, Ix2.bcast_row, Ideal.addf_def]
  refine congrArg (· + bhh (ix2 (0 : Fin 1) g)) ?_
  exact add_right_comm _ _ _

end Cert.Bridge

end
-- ==== Proof.BrHidden.lean ====
/-
  Row r of a block against row n of the whole arrays, the cell update. If the block's gates row is the reference's row n
  and its cell-state row the array's row n, the new hidden state agrees at column d: with i, f, g, o the gate columns
  d, 256 + d, 512 + d, 768 + d, both are σ(o) · tanh (σ(f) · c + σ(i) · tanh g). The reference spells the logistic function
  σ(y) as 1 / (1 + e^(−y)) in separate operations, the kernel as one operation; on the extended reals that one operation
  is by definition the same quotient (the literal 1.0 is the extended real one), with no condition on y.
-/
import proofs.«128018_j63410897158187_1_alg».proof.Proof.KStages
import proofs.«128018_j63410897158187_1_alg».proof.Proof.RefRead
import proofs.«128018_j63410897158187_1_alg».proof.Proof.LibIx2
import Idealize.ShloMosaic.Lib.ValueLayout
import Idealize.ShloMosaic.Lib.IdealHost

noncomputable section

namespace Cert.Bridge

open Idealize.ShloMosaic Idealize.ShloMosaic.ValueIdx Cert.KernelIdeal.Stages Cert.ReferenceIdeal.ReadP
open Cert.KernelIdeal (S1000x2 S1000x4 S1000x8 S1000x32 S1000x256 S1000x1024 S1x4 S8x32 S1x32 S32x1024 S1x1024 S256x1024 S256x32)
open Cert.ReferenceIdeal (S100000x2 S100000x4 S100000x8 S100000x32 S100000x256 S100000x1024 S32x8 S32 S1024x32 S1024 S1024x256 S32x256)
open Cert.KernelIdeal.Gen Cert.ReferenceIdeal.Gen

/-- The reference's spelling of the logistic function is the kernel's one operation, at every extended real. -/
theorem sigmoid_eq (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
      = FloatOps.logistic y := by
  show Ideal.div (Ideal.ofBits .f32 0x3F800000#32) (Ideal.ofBits .f32 0x3F800000#32 + Ideal.exp (-y)) = Ideal.div 1 (1 + Ideal.exp (-y))
  rw [Ideal.ofBits_one_f32]

/-- The new hidden-state row. -/
theorem hidden_row (x0 x1 : FVec Ideal S100000x2 .f32) (x2 x3 : FVec Ideal S100000x256 .f32) (x5 : FVec Ideal S32x8 .f32) (x6 : FVec Ideal S32 .f32)
    (x7 : FVec Ideal S1024x32 .f32) (x8 : FVec Ideal S1024 .f32) (x9 : FVec Ideal S1024x256 .f32) (x10 : FVec Ideal S1024 .f32)
    (g : FVec Ideal S1000x1024 .f32) (cb : Vec Ideal S1000x256 .f32) (r : Fin 1000) (n : Fin 100000)
    (hg : ∀ q : Fin 1024, g (ix2 r q) = val_main_v23 (F := Ideal) x0 x1 x2 x5 x6 x7 x8 x9 x10 (ix2 n q))
    (hcb : ∀ d : Fin 256, cb (ix2 r d) = x3 (ix2 n d)) (d : Fin 256) :
    Cert.KernelIdeal.Stages.hidden g cb (ix2 r d) = val_main_v51 (F := Ideal) x0 x1 x2 x3 x5 x6 x7 x8 x9 x10 (ix2 n d) := by
  have hd := d.isLt
  have e24 : idx_main_v24 (ix2 n d) = ix2 n (⟨0 + d.val, by omega⟩ : Fin 1024) := funext fun a => by
    match a with
    | ⟨0, _⟩ => rfl
    | ⟨1, _⟩ => exact Fin.ext (by show d.val = 0 + d.val; omega)
  have e25 : idx_main_v25 (ix2 n d) = ix2 n (⟨256 + d.val, by omega⟩ : Fin 1024) := funext fun a => by
    match a with | ⟨0, _⟩ => rfl | ⟨1, _⟩ => rfl
  have e26 : idx_main_v26 (ix2 n d) = ix2 n (⟨512 + d.val, by omega⟩ : Fin 1024) := funext fun a => by
    match a with | ⟨0, _⟩ => rfl | ⟨1, _⟩ => rfl
  have e27 : idx_main_v27 (ix2 n d) = ix2 n (⟨768 + d.val, by omega⟩ : Fin 1024) := funext fun a => by
    match a with | ⟨0, _⟩ => rfl | ⟨1, _⟩ => rfl
  have lg : ∀ (v : FVec Ideal S1000x256 .f32) (i : S1000x256.Idx), logistic v i = FloatOps.logistic (v i) := fun _ _ => rfl
  have th : ∀ (v : FVec Ideal S1000x256 .f32) (i : S1000x256.Idx), tanh v i = FloatOps.tanh (v i) := fun _ _ => rfl
  simp only [val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply,
    val_main_cst_0_apply, val_main_cst_1_apply, val_main_cst_2_apply, val_main_cst_3_apply, val_main_cst_4_apply, val_main_cst_5_apply,
    e24, e25, e26, e27, sigmoid_eq, ← hg, ← hcb]
  unfold Cert.KernelIdeal.Stages.hidden
  simp only [mulf_apply, addf_apply, lg, th, slice2_axis1_eq]
  rfl

end Cert.Bridge

end
-- ==== Proof.BrOutput.lean ====
/-
  Row r of a block against row n of the whole arrays, the output. If the block's new hidden-state row is the reference's
  row n, its weight block the transposed output weights and its bias row the bias, then output column o agrees: both are
  ∑_d h_new[d] · W[o, d] + b[o].
-/
import proofs.«128018_j63410897158187_1_alg».proof.Proof.KStages
import proofs.«128018_j63410897158187_1_alg».proof.Proof.RefRead
import proofs.«128018_j63410897158187_1_alg».proof.Proof.LibIx2
import proofs.«128018_j63410897158187_1_alg».proof.Proof.KDots

noncomputable section

namespace Cert.Bridge

open Idealize.ShloMosaic Idealize.ShloMosaic.ValueIdx Cert.KernelIdeal.Stages Cert.ReferenceIdeal.ReadP
open Cert.KernelIdeal (S1000x2 S1000x4 S1000x8 S1000x32 S1000x256 S1000x1024 S1x4 S8x32 S1x32 S32x1024 S1x1024 S256x1024 S256x32)
open Cert.ReferenceIdeal (S100000x2 S100000x4 S100000x8 S100000x32 S100000x256 S100000x1024 S32x8 S32 S1024x32 S1024 S1024x256 S32x256)
open Cert.KernelIdeal.Gen Cert.ReferenceIdeal.Gen

open Cert.KernelIdeal.Dots

/-- The output row. -/
theorem output_row (x0 x1 : FVec Ideal S100000x2 .f32) (x2 x3 : FVec Ideal S100000x256 .f32) (x5 : FVec Ideal S32x8 .f32) (x6 : FVec Ideal S32 .f32)
    (x7 : FVec Ideal S1024x32 .f32) (x8 : FVec Ideal S1024 .f32) (x9 : FVec Ideal S1024x256 .f32) (x10 : FVec Ideal S1024 .f32)
    (x11 : FVec Ideal S32x256 .f32) (x12 : FVec Ideal S32 .f32)
    (hn : FVec Ideal S1000x256 .f32) (wo : Vec Ideal S256x32 .bf16) (bo : Vec Ideal S1x32 .f32) (r : Fin 1000) (n : Fin 100000)
    (hhn : ∀ d : Fin 256, hn (ix2 r d) = val_main_v51 (F := Ideal) x0 x1 x2 x3 x5 x6 x7 x8 x9 x10 (ix2 n d))
    (hwo : ∀ (d : Fin 256) (o : Fin 32), wo (ix2 d o) = x11 (ix2 o d))
    (hbo : ∀ o : Fin 32, bo (ix2 (0 : Fin 1) o) = x12 (ix1 o)) (o : Fin 32) :
    output hn wo bo (ix2 r o) = val_main_v56 (F := Ideal) x0 x1 x2 x3 x5 x6 x7 x8 x9 x10 x11 x12 (ix2 n o) := by
  have el : ∀ k : Fin 256, lidx_main_v53 (ix2 n o) k = ix2 n k := fun k => funext fun a => by
    match a with | ⟨0, _⟩ => rfl | ⟨1, _⟩ => rfl
  have er : ∀ k : Fin 256, idx_main_v52 (ridx_main_v53 (ix2 n o) k) = ix2 o k := fun k => funext fun a => by
    match a with | ⟨0, _⟩ => rfl | ⟨1, _⟩ => rfl
  have eb : idx_main_v54 (idx_main_v55 (ix2 n o)) = ix1 o := funext fun a => by
    match a with | ⟨0, _⟩ => rfl
  rw [val_main_v56_apply, val_main_v53_apply, val_main_v55_apply, val_main_v54_apply, eb, ← hbo]
  simp only [val_main_v52_apply, el, er, ← hhn, ← hwo]
  unfold output
  simp only [addf_apply, matmul_out, truncf_apply, shapeCast_self, Ix2.bcast_row]
  rfl

end Cert.Bridge

end
-- ==== Proof.KRow.lean ====
/-
  One entry of the kernel's stored block against the reference. If row r of each row-blocked operand is row n of its
  array, the total row is the reference's, each weight block is the transposed weight matrix and each bias row the bias,
  then entry (r, o) of what the body stores is entry (n, o) of the reference's result before its final select: the five
  stages, each row by row.
-/
import proofs.«128018_j63410897158187_1_alg».proof.Proof.KStages
import proofs.«128018_j63410897158187_1_alg».proof.Proof.RefRead
import proofs.«128018_j63410897158187_1_alg».proof.Proof.BrFeats
import proofs.«128018_j63410897158187_1_alg».proof.Proof.BrEmbed
import proofs.«128018_j63410897158187_1_alg».proof.Proof.BrGates
import proofs.«128018_j63410897158187_1_alg».proof.Proof.BrHidden
import proofs.«128018_j63410897158187_1_alg».proof.Proof.BrOutput

noncomputable section

namespace Cert.Bridge

open Idealize.ShloMosaic Idealize.ShloMosaic.ValueIdx Cert.KernelIdeal.Stages Cert.ReferenceIdeal.ReadP
open Cert.KernelIdeal (S1000x2 S1000x4 S1000x8 S1000x32 S1000x256 S1000x1024 S1x4 S8x32 S1x32 S32x1024 S1x1024 S256x1024 S256x32)
open Cert.ReferenceIdeal (S100000x2 S100000x4 S100000x8 S100000x32 S100000x256 S100000x1024 S32x8 S32 S1024x32 S1024 S1024x256 S32x256)
open Cert.KernelIdeal.Gen Cert.ReferenceIdeal.Gen

theorem row_eq (x0 x1 : FVec Ideal S100000x2 .f32) (x2 x3 : FVec Ideal S100000x256 .f32) (x5 : FVec Ideal S32x8 .f32) (x6 : FVec Ideal S32 .f32)
    (x7 : FVec Ideal S1024x32 .f32) (x8 : FVec Ideal S1024 .f32) (x9 : FVec Ideal S1024x256 .f32) (x10 : FVec Ideal S1024 .f32)
    (x11 : FVec Ideal S32x256 .f32) (x12 : FVec Ideal S32 .f32)
    (tot : Vec Ideal S1x4 .f32) (o1 o2 : Vec Ideal S1000x2 .f32) (hb cb : Vec Ideal S1000x256 .f32) (we : Vec Ideal S8x32 .bf16)
    (be : Vec Ideal S1x32 .f32) (wih : Vec Ideal S32x1024 .bf16) (bih : Vec Ideal S1x1024 .f32) (whh : Vec Ideal S256x1024 .bf16)
    (bhh : Vec Ideal S1x1024 .f32) (wo : Vec Ideal S256x32 .bf16) (bo : Vec Ideal S1x32 .f32) (r : Fin 1000) (n : Fin 100000)
    (htot : ∀ j : Fin 4, tot (ix2 (0 : Fin 1) j) = val_main_v3 (F := Ideal) x0 x1 (ix2 (0 : Fin 1) j))
    (ho1 : ∀ j : Fin 2, o1 (ix2 r j) = x0 (ix2 n j)) (ho2 : ∀ j : Fin 2, o2 (ix2 r j) = x1 (ix2 n j))
    (hhb : ∀ d : Fin 256, hb (ix2 r d) = x2 (ix2 n d)) (hcb : ∀ d : Fin 256, cb (ix2 r d) = x3 (ix2 n d))
    (hwe : ∀ (k : Fin 8) (e : Fin 32), we (ix2 k e) = x5 (ix2 e k)) (hbe : ∀ e : Fin 32, be (ix2 (0 : Fin 1) e) = x6 (ix1 e))
    (hwih : ∀ (e : Fin 32) (g : Fin 1024), wih (ix2 e g) = x7 (ix2 g e)) (hbih : ∀ g : Fin 1024, bih (ix2 (0 : Fin 1) g) = x8 (ix1 g))
    (hwhh : ∀ (d : Fin 256) (g : Fin 1024), whh (ix2 d g) = x9 (ix2 g d)) (hbhh : ∀ g : Fin 1024, bhh (ix2 (0 : Fin 1) g) = x10 (ix1 g))
    (hwo : ∀ (d : Fin 256) (o : Fin 32), wo (ix2 d o) = x11 (ix2 o d)) (hbo : ∀ o : Fin 32, bo (ix2 (0 : Fin 1) o) = x12 (ix1 o))
    (o : Fin 32) :
    k0_pay1 (k0_pay2 o1 o2 tot we be hb wih whh bih) (k0_pay3 bhh) cb wo bo (ix2 r o)
      = val_main_v56 (F := Ideal) x0 x1 x2 x3 x5 x6 x7 x8 x9 x10 x11 x12 (ix2 n o) := by
  rw [payload_eq]
  exact output_row x0 x1 x2 x3 x5 x6 x7 x8 x9 x10 x11 x12 _ wo bo r n
    (hidden_row x0 x1 x2 x3 x5 x6 x7 x8 x9 x10 _ cb r n
      (gates_row x0 x1 x2 x5 x6 x7 x8 x9 x10 _ hb wih whh bih bhh r n
        (embed_row x0 x1 x5 x6 _ we be r n (feats_row x0 x1 tot o1 o2 r n ho1 ho2 htot) hwe hbe)
        hhb hwih hwhh hbih hbhh)
      hcb)
    hwo hbo o

end Cert.Bridge

end
-- ==== Proof.SumLaw.lean ====
/-
  The one law that joins the two programs' `total` row. On the extended reals subtraction does not distribute over
  a sum in general (an infinite term breaks it), but it does when every term is a real number: then both sides are
  the coercion of the same real sum, `∑ (bᵢ − aᵢ) = ∑ bᵢ − ∑ aᵢ`.
-/
import Idealize.ShloMosaic.PureOps.Ideal

namespace Cert.SumLaw

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real-valued terms the sum of the differences is the difference of the sums. -/
theorem sum_sub_of_real {ι : Type*} [Fintype ι] (a b : ι → EReal) (ha : ∀ i, ∃ x : ℝ, a i = (x : EReal))
    (hb : ∀ i, ∃ y : ℝ, b i = (y : EReal)) : ∑ i, (b i - a i) = (∑ i, b i) - ∑ i, a i := by
  choose f hf using ha
  choose g hg using hb
  simp only [hf, hg, ← EReal.coe_sub]
  rw [← coe_sum, ← coe_sum, ← coe_sum, ← EReal.coe_sub, Finset.sum_sub_distrib]

end Cert.SumLaw
-- ==== Proof.Total.lean ====
/-
  The total row. The reference sums the state rows (second observation, then the difference of the observations) over all
  rows; the kernel's host code sums the two observation arrays separately and subtracts the sums. Columns 0 and 1 are the
  same sum. Columns 2 and 3 are ∑ₙ (bₙ − aₙ) against ∑ₙ bₙ − ∑ₙ aₙ, equal because every observation is a real number
  (the precondition): this is the one place the two programs differ in arrangement in a way that needs finiteness.
-/
import proofs.«128018_j63410897158187_1_alg».proof.Proof.KBefore
import proofs.«128018_j63410897158187_1_alg».proof.Proof.RefRead
import proofs.«128018_j63410897158187_1_alg».proof.Proof.LibIx2
import proofs.«128018_j63410897158187_1_alg».proof.Proof.SumLaw

noncomputable section

namespace Cert.Bridge

open Idealize.ShloMosaic Idealize.ShloMosaic.ValueIdx Cert.ReferenceIdeal.ReadP Cert.KernelIdeal.Arr
open Cert.KernelIdeal (S1x2 S1x4 S2 S_)
open Cert.ReferenceIdeal (S100000x2 S100000x4)
open Cert.KernelIdeal.Gen Cert.ReferenceIdeal.Gen

/-- A column sum of an observation array as the kernel's host code spells it (a sum over the rows from the constant
    zero, laid out as one row): the zero plus the sum of the column's entries. -/
theorem colSum (a : FVec Ideal S100000x2 .f32) (j : Fin 2) :
    broadcastInDim S1x2 ![1] Cert.KernelIdeal.Facts₀.bcast_S2_S1x2_1
        (Host.reduceAdd a (constant S_ .f32 0x00000000#32) Cert.KernelIdeal.Facts₀.reducesTo_S100000x2_S2_d0 Cert.KernelIdeal.Facts₀.h_S_) (ix2 (0 : Fin 1) j)
      = Ideal.ofBits .f32 0x00000000#32 + ∑ n : Fin 100000, a (ix2 n j) := by
  rw [broadcastInDim_apply _ Cert.KernelIdeal.Facts₀.bcast_S2_S1x2_1 _ (ix2 (0 : Fin 1) j) (ix1 j) (fun d => match d with
    | ⟨0, _⟩ => by show j.val = if (2 : Nat) = 1 then 0 else j.val; rw [if_neg (by decide)])]
  simp only [Host.reduceAdd, Ideal.hostReduceAdd_def]
  rw [Ideal.hostReduceAdd_single Cert.KernelIdeal.Facts₀.reducesTo_S100000x2_S2_d0 (by decide)]
  refine congrArg (_ + ·) (Finset.sum_congr rfl fun k _ => ?_)
  exact congrArg a (funext fun d => Fin.ext (by match d with | ⟨0, _⟩ => rfl | ⟨1, _⟩ => rfl))

/-- The kernel's total row is the reference's, when every observation is a real number. -/
theorem total_eq (a0 a1 : FVec Ideal S100000x2 .f32) (h0 : ∀ i, ∃ r : ℝ, (a0 i : EReal) = (r : EReal))
    (h1 : ∀ i, ∃ r : ℝ, (a1 i : EReal) = (r : EReal)) (j : Fin 4) :
    totalRow a0 a1 (ix2 (0 : Fin 1) j) = val_main_v3 (F := Ideal) a0 a1 (ix2 (0 : Fin 1) j) := by
  have e3 : idx_main_v3 (ix2 (0 : Fin 1) j) = ix1 j := funext fun a => by
    match a with | ⟨0, _⟩ => rfl
  have e2 : ∀ k : Fin 100000, idx_main_v2 (ix1 j) k = ix2 k j := fun k => funext fun a => by
    match a with | ⟨0, _⟩ => rfl | ⟨1, _⟩ => rfl
  rw [val_main_v3_apply, e3, val_main_v2_apply]
  simp only [e2]
  unfold totalRow
  rcases Nat.lt_or_ge j.val 2 with h | h
  · rw [Ix2.concat_cols_left _ _ _ (0 : Fin 1) j ⟨j.val, h⟩ rfl, colSum]
    refine congrArg (_ + ·) (Finset.sum_congr rfl fun k _ => ?_)
    unfold val_main_v1
    rw [Ix2.concat_cols_left _ _ _ k j ⟨j.val, h⟩ rfl]
  · have h' : j.val - 2 < 2 := by have := j.isLt; omega
    have hs : ∀ k : Fin 100000, val_main_v1 (F := Ideal) a0 a1 (ix2 k j)
        = a1 (ix2 k (⟨j.val - 2, h'⟩ : Fin 2)) - a0 (ix2 k (⟨j.val - 2, h'⟩ : Fin 2)) := fun k => by
      unfold val_main_v1
      rw [Ix2.concat_cols_right _ _ _ k j ⟨j.val - 2, h'⟩ (by show j.val - 2 + 2 = j.val; omega)]
      rfl
    rw [Ix2.concat_cols_right _ _ _ (0 : Fin 1) j ⟨j.val - 2, h'⟩ (by show j.val - 2 + 2 = j.val; omega), subf_apply, colSum, colSum]
    simp only [hs]
    rw [SumLaw.sum_sub_of_real (fun k : Fin 100000 => a0 (ix2 k (⟨j.val - 2, h'⟩ : Fin 2))) (fun k : Fin 100000 => a1 (ix2 k (⟨j.val - 2, h'⟩ : Fin 2)))
      (fun k => h0 _) (fun k => h1 _)]
    show (Ideal.ofBits .f32 0x00000000#32 + _) - (Ideal.ofBits .f32 0x00000000#32 + _) = Ideal.ofBits .f32 0x00000000#32 + _
    rw [Ideal.ofBits_zero_f32]
    simp only [zero_add]

end Cert.Bridge

end
-- ==== Proof.KFinal.lean ====
/-
  The kernel's output array after the region. What grid point t writes back is, entry by entry, the reference's result
  before its final select at rows t · 1000 … t · 1000 + 999 — each input block read where the output block's rows say,
  then the row-by-row agreement of the five stages —, the 100 row blocks cover the array (row i lies in block i / 1000),
  so the whole array is that result of the kernel's own arguments. The observations' finiteness enters through the
  total row only.
-/
import proofs.«128018_j63410897158187_1_alg».proof.Proof.KBlockReads
import proofs.«128018_j63410897158187_1_alg».proof.Proof.KRow
import proofs.«128018_j63410897158187_1_alg».proof.Proof.Total
import Idealize.ShloMosaic.Lib.Pipeline.Value

noncomputable section

namespace Cert.KernelIdeal.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The reference's result before its final select, of the kernel's own arguments. -/
def outArr (c : Dev nD) : S100000x32.Idx → EReal :=
  Cert.ReferenceIdeal.ReadP.val_main_v56 (F := Ideal) (m ((c : Thread nD τ).loc main_arg0))
    (m ((c : Thread nD τ).loc main_arg1))
    (m ((c : Thread nD τ).loc main_arg2))
    (m ((c : Thread nD τ).loc main_arg3))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))

theorem hz : (![0, 0] : Fin 2 → Nat) = fun _ => 0 := funext fun a => by fin_cases a <;> rfl

/-- What grid point t writes back to the output array is block t of `outArr`. -/
theorem flushed_eq (c : Dev nD)
    (h0 : ∀ i, ∃ r : ℝ, ((m ((c : Thread nD τ).loc main_arg0)) i : EReal) = (r : EReal)) (h1 : ∀ i, ∃ r : ℝ, ((m ((c : Thread nD τ).loc main_arg1)) i : EReal) = (r : EReal))
    (t : Fin cfg0.N) :
    (dats m 0 c).flushed 13 t = ((cfg0.win 13).blk t).view.read (Elt Ideal) (outArr m c) := by
  show (cfg0.win 13).cut (grid0.coords t) ((dats m 0 c).after 13 t) = _
  rw [after0_13]
  unfold out0_13
  rw [View.canon_unit_zero hz]
  simp only [View.ld_unit_zero (S := S1000x2) hz, View.ld_unit_zero (S := S1x4) hz, View.ld_unit_zero (S := S8x32) hz,
    View.ld_unit_zero (S := S1x32) hz, View.ld_unit_zero (S := S1000x256) hz, View.ld_unit_zero (S := S32x1024) hz,
    View.ld_unit_zero (S := S256x1024) hz, View.ld_unit_zero (S := S1x1024) hz, View.ld_unit_zero (S := S256x32) hz]
  funext y
  obtain ⟨r, o, rfl⟩ : ∃ (r : Fin 1000) (o : Fin 32), y = ix2 r o := ⟨y 0, y 1, eq_ix2 y⟩
  have hr := r.isLt
  have ht : t.val < 100 := t.isLt
  have hi := idx_rows t
  have he : ((cfg0.win 13).blk t).view.emb (ix2 r o) = ix2 (⟨t.val * 1000 + r.val, by omega⟩ : Fin 100000) o := by
    funext a; apply Fin.ext
    match a with
    | ⟨0, _⟩ => show win0_13.index t (0 : Fin 2) * 1000 + 1 * r.val = t.val * 1000 + r.val; omega
    | ⟨1, _⟩ => show win0_13.index t (1 : Fin 2) * 32 + 1 * o.val = o.val; omega
  show k0_pay1 (k0_pay2 (iblk m c 1 t) (iblk m c 2 t) (iblk m c 0 t) (iblk m c 5 t) (iblk m c 6 t) (iblk m c 3 t) (iblk m c 7 t) (iblk m c 9 t) (iblk m c 8 t))
      (k0_pay3 (iblk m c 10 t)) (iblk m c 4 t) (iblk m c 11 t) (iblk m c 12 t) (ix2 r o)
    = outArr m c (((cfg0.win 13).blk t).view.emb (ix2 r o))
  rw [he]
  unfold outArr
  exact Cert.Bridge.row_eq (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) r (⟨t.val * 1000 + r.val, by omega⟩ : Fin 100000)
    (fun j => (blk_total m c t j).trans (Cert.Bridge.total_eq _ _ h0 h1 j))
    (fun j => blk_obs1 m c t r j _ rfl) (fun j => blk_obs2 m c t r j _ rfl)
    (fun d => blk_hid m c t r d _ rfl) (fun d => blk_cell m c t r d _ rfl)
    (fun k e => blk_wEmb m c t k e) (fun e => blk_bEmb m c t e)
    (fun e g => blk_wIh m c t e g) (fun g => blk_bIh m c t g)
    (fun d g => blk_wHh m c t d g) (fun g => blk_bHh m c t g)
    (fun d o' => blk_wOut m c t d o') (fun o' => blk_bOut m c t o') o

/-- Every index of the output array lies in some grid point's block: row i in block i / 1000. -/
theorem cover (i : S100000x32.Idx) : ∃ t : Fin cfg0.N, (cfg0.win 13).flush t = true ∧ i ∈ ((cfg0.win 13).blk t).view.set := by
  have hi0 : (i 0).val < 100000 := (i 0).isLt
  have hi1 : (i 1).val < 32 := (i 1).isLt
  have hlt : (i 0).val / 1000 < cfg0.N := by show (i 0).val / 1000 < 100; omega
  refine ⟨⟨(i 0).val / 1000, hlt⟩, flush0_13 _, ?_⟩
  show i ∈ ((View.whole main_v18).slice (win0_13.rect ⟨(i 0).val / 1000, hlt⟩)).set
  rw [View.set_slice_whole, Rect.mem_set_unit]
  obtain ⟨-, -, -, -, -, -, -, -, e0, e1⟩ := idx_rows ⟨(i 0).val / 1000, hlt⟩
  intro a
  match a with
  | ⟨0, _⟩ =>
      show win0_13.index ⟨(i 0).val / 1000, hlt⟩ (0 : Fin 2) * 1000 ≤ (i 0).val
        ∧ (i 0).val < win0_13.index ⟨(i 0).val / 1000, hlt⟩ (0 : Fin 2) * 1000 + 1000
      rw [e0]
      show (i 0).val / 1000 * 1000 ≤ (i 0).val ∧ (i 0).val < (i 0).val / 1000 * 1000 + 1000
      omega
  | ⟨1, _⟩ =>
      show win0_13.index ⟨(i 0).val / 1000, hlt⟩ (1 : Fin 2) * 32 ≤ (i 1).val
        ∧ (i 1).val < win0_13.index ⟨(i 0).val / 1000, hlt⟩ (1 : Fin 2) * 32 + 32
      omega

/-- The output array after the region is `outArr`. -/
theorem final (c : Dev nD)
    (h0 : ∀ i, ∃ r : ℝ, ((m ((c : Thread nD τ).loc main_arg0)) i : EReal) = (r : EReal)) (h1 : ∀ i, ∃ r : ℝ, ((m ((c : Thread nD τ).loc main_arg1)) i : EReal) = (r : EReal)) :
    (dats m 0 c).arrAt 13 cfg0.N = outArr m c :=
  (dats m 0 c).arrAt_eq_of_cover 13 (outArr m c) (fun t _ => flushed_eq m c h0 h1 t) cover

end Cert.KernelIdeal.Arr

end
-- ==== Proof.KTail.lean ====
/-
  The kernel's run with its result named. After the region the host selects, entry by entry, between a zero array and
  the region's output array, on whether exactly one track is visible (the count of the mask equals one): the same
  function of the mask and of the array as the reference's last step. The region's output array being the reference's
  result before that step (of the kernel's own arguments), the kernel's result is that function of it; the arguments
  end as launched, read off the frame run as the frame claim reads them.
-/
import proofs.«128018_j63410897158187_1_alg».proof.Proof.KFinal
import Idealize.ShloMosaic.Lib.StableHlo.Run

noncomputable section

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The last step: all zeros when exactly one entry of the mask is set, the array otherwise. -/
def tailOf (a4 : IVec S100000 1) (out : FVec Ideal S100000x32 .f32) : FVec Ideal S100000x32 .f32 :=
  select
    (broadcastInDim S100000x32 ![] bcast_S_S100000x32
      (cmpi .eq (Host.reduce IntOp.addi (extui 32 a4 natLt_1_32) (constantI S_ 32 0#32) reducesTo_S100000_S_d0 h_S_) (constantI S_ 32 1#32)))
    (broadcastInDim S100000x32 ![] bcast_S_S100000x32 (constant S_ .f32 0x00000000#32))
    out

/-- What the host lines after the region leave in the result buffer. -/
theorem tail_eq (c : Dev nD) :
    (Pipeline.afterTail₀ cfgs (dats m) 0 (V0 m) [hostOps1, hostOps1_1] c main_v23 : S100000x32.Idx → EReal)
      = tailOf (m ((c : Thread nD τ).loc main_arg4)) ((dats m 0 c).arrAt 13 cfg0.N) := by
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have e18 : Pipeline.withArrays (cfgs 0).spec c (V0 m c) (fun w => (dats m 0 c).arrAt w (cfgs 0).N) (Proc.devRef .tc main_v18)
      = (dats m 0 c).arrAt 13 cfg0.N :=
    Pipeline.withArrays_arr spec0 launch0.win.arr_inj c _ _ 13
  unfold Pipeline.afterTail₀
  simp only [hostOps1, hostOps1_1, List.flatten_cons, List.flatten_nil, List.append_nil, List.cons_append, List.nil_append]
  after_results
  simp only [TRef.ofBuf, TRef.toBuf, cast_eq]
  rw [e4, e18]
  rfl

/-- The kernel's run: the result is the last step of the reference's earlier result (of the kernel's own arguments), and
    every argument ends as launched. -/
theorem run_named
    (h0 : ∀ (c : Dev nD) i, ∃ r : ℝ, (m ((c : Thread nD τ).loc main_arg0) i : EReal) = (r : EReal))
    (h1 : ∀ (c : Dev nD) i, ∃ r : ℝ, (m ((c : Thread nD τ).loc main_arg1) i : EReal) = (r : EReal)) :
    θ_run defs (onTc (τ := τ) (main (F := Ideal))) ⟨m, fun _ => 0, ρ⟩ (fun r => ∀ c : Dev nD,
      r.2.mem ((c.tc : Thread nD τ).loc main_v23) = tailOf (m ((c : Thread nD τ).loc main_arg4)) (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v23 (Pipeline.mem_restRefs_of main_v23 (by decide) (by decide))).trans
        ((tail_eq m c).trans (congrArg (tailOf (m ((c : Thread nD τ).loc main_arg4))) (final m c (h0 c) (h1 c)))),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Arr

end
-- ==== Proof.Finite.lean ====
/-
  What the precondition gives the value proof. `finite_inputs` is a conjunction of twelve "every entry of this
  float input has |x| < +∞" tests, printed as a left-nested tree of `and`s over reductions by `and`; the two
  innermost are the tests of the first two arguments (the two observation arrays). An extended real whose absolute
  value is below +∞ is neither infinity, hence a real number. Only these two arrays' finiteness is used: their
  column sums are where the two programs differ in arrangement.
-/
import proofs.«128018_j63410897158187_1_alg».proof.Pre_finite_inputs
import Idealize.ShloMosaic.Lib.ReduceAll
import Idealize.ShloMosaic.Lib.ValueIdx
import Idealize.ShloMosaic.Lib.KernelVsHost

noncomputable section

namespace Cert.Finite

open Idealize.ShloMosaic Cert.Pre_finite_inputs

instance : Subsingleton S_.Idx := ⟨fun _ _ => funext fun d => d.elim0⟩

/-- An extended real that compares below +∞ in absolute value is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  rw [← Ideal.xori_weird_eq_hostAbsf_olt_inf] at h
  have hne : ¬ ((x : EReal) = ⊤ ∨ (x : EReal) = ⊥) := by
    intro hx
    have hw : FloatOps.weird x = 1#1 := by
      show BitVec.ofBool (decide ((x : EReal) = ⊤ ∨ (x : EReal) = ⊥)) = 1#1
      simp [hx]
    rw [hw] at h
    exact absurd h (by decide)
  push Not at hne
  exact ⟨(x : EReal).toReal, (EReal.coe_toReal hne.1 hne.2).symm⟩

variable [Cert.Pre_finite_inputs.Facts]

/-- Under the precondition every entry of the first two arguments is a real number. -/
theorem obs_real (a0 a1 : FVec Ideal S100000x2 .f32) (a2 a3 : FVec Ideal S100000x256 .f32) (a4 : IVec S100000 1)
    (a5 : FVec Ideal S32x8 .f32) (a6 : FVec Ideal S32 .f32) (a7 : FVec Ideal S1024x32 .f32) (a8 : FVec Ideal S1024 .f32)
    (a9 : FVec Ideal S1024x256 .f32) (a10 : FVec Ideal S1024 .f32) (a11 : FVec Ideal S32x256 .f32) (a12 : FVec Ideal S32 .f32)
    (h : fn (F := Ideal) a0 a1 a2 a3 a4 a5 a6 a7 a8 a9 a10 a11 a12 = fun _ => 1#1) :
    (∀ i, ∃ r : ℝ, (a0 i : EReal) = (r : EReal)) ∧ (∀ i, ∃ r : ℝ, (a1 i : EReal) = (r : EReal)) := by
  have h0 := congrFun h ValueIdx.ix0
  dsimp only [fn, fn_part1, fn_part2, fn_part3] at h0
  have e : ∀ {c d : BitVec 1}, IntOp.andi c d = 1#1 → c = 1#1 := fun hcd => (IntOp.andi_eq_one.mp hcd).1
  have h8 := e (e (e (e (e (e (e (e (e (e h0)))))))))
  obtain ⟨h3, h7⟩ := IntOp.andi_eq_one.mp h8
  exact ⟨fun i => real_of_abs_lt_inf _ (Host.reduce_andi_all _ _ _ _ ValueIdx.ix0 h3 i),
    fun i => real_of_abs_lt_inf _ (Host.reduce_andi_all _ _ _ _ ValueIdx.ix0 h7 i)⟩

end Cert.Finite

end
-- ==== Proof.Algebraic.lean ====
/-
  The value claim. From memories that agree on the arguments, the idealized kernel ends with its result at "the last
  step of the reference's earlier result, of the kernel's own arguments" (the kernel's named run, which uses the
  observations' finiteness from the precondition), and the idealized reference ends with its result at its own composed
  term, which is that same last step of that same earlier result, of its own arguments; the arguments agreeing, the two
  results are equal, entry by entry.
-/
import proofs.«128018_j63410897158187_1_alg».proof.Defs
import proofs.«128018_j63410897158187_1_alg».proof.Proof.KTail
import proofs.«128018_j63410897158187_1_alg».proof.Proof.RefRead
import proofs.«128018_j63410897158187_1_alg».proof.Proof.Finite
import proofs.«128018_j63410897158187_1_alg».proof.Proof.Gen.Pre_finite_inputs

noncomputable section

namespace Cert.Proof.Value

open Idealize.ShloMosaic Idealize.ShloMosaic.TcCoe Idealize.SL.Sem
open Cert.ReferenceIdeal (S100000x2 S100000x256 S100000 S32x8 S32 S1024x32 S1024 S1024x256 S32x256)
open Cert.KernelIdeal.Gen Cert.ReferenceIdeal.Gen Cert.Pre_finite_inputs.Gen

/-- The reference's result is the last step (zeros when exactly one track is visible, the array otherwise) of its result
    before that step: both sides are the same operations of the same operands. -/
theorem ref_tail (x0 x1 : FVec Ideal S100000x2 .f32) (x2 x3 : FVec Ideal S100000x256 .f32) (x4 : IVec S100000 1)
    (x5 : FVec Ideal S32x8 .f32) (x6 : FVec Ideal S32 .f32) (x7 : FVec Ideal S1024x32 .f32) (x8 : FVec Ideal S1024 .f32)
    (x9 : FVec Ideal S1024x256 .f32) (x10 : FVec Ideal S1024 .f32) (x11 : FVec Ideal S32x256 .f32) (x12 : FVec Ideal S32 .f32) :
    Cert.ReferenceIdeal.ReadP.val_main_v61 (F := Ideal) x0 x1 x2 x3 x4 x5 x6 x7 x8 x9 x10 x11 x12
      = Cert.KernelIdeal.Arr.tailOf x4 (Cert.ReferenceIdeal.ReadP.val_main_v56 (F := Ideal) x0 x1 x2 x3 x5 x6 x7 x8 x9 x10 x11 x12) := rfl

theorem algebraic : Cert.algebraic_KernelIdeal_ReferenceIdeal := by
  intro m ρ m' ρ' hpre hagree
  have hfin := fun c => Cert.Finite.obs_real _ _ _ _ _ _ _ _ _ _ _ _ _ (hpre c)
  refine ⟨fun c => Cert.KernelIdeal.Arr.tailOf (m ((c.tc : Thread Cert.KernelIdeal.nD Cert.KernelIdeal.τ).loc Cert.KernelIdeal.main_arg4))
      (Cert.KernelIdeal.Arr.outArr m c),
    Cert.KernelIdeal.Arr.run_named m ρ (fun c => (hfin c).1) (fun c => (hfin c).2), ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7, g8, g9, g10, g11, g12⟩ := hagree c
  rw [Cert.ReferenceIdeal.ReadP.val_main_v61_eq, g0, g1, g2, g3, g4, g5, g6, g7, g8, g9, g10, g11, g12]
  exact ref_tail _ _ _ _ _ _ _ _ _ _ _ _ _

end Cert.Proof.Value

end
-- ==== Proof.lean ====
/- A row-tiled LSTM-cell kernel against its plain reference, over the extended reals. Per row: the state (position
   and velocity), the eight neighbourhood features (the state, and the all-rows total minus the state), an embedding
   (linear map, bias, rectifier), the four LSTM gates (two linear maps and two biases summed), the cell update
   σ(o) · tanh (σ(f) · c + σ(i) · tanh g), an output linear map and bias; the whole result replaced by zeros when exactly one
   track is visible. The kernel does this for blocks of 1000 rows, the reference for all rows at once; they differ in
   how the total row is arranged (sums of differences against differences of sums, equal for finite observations), in
   the order the gate terms are added (addition is commutative and associative), and in the spelling of σ (one
   operation against 1 / (1 + e^(−y)), the same function at every extended real). The three frames are the generated
   ones (the reference's from its run); the ideal pass rewrote nothing, so preservation asks nothing. -/
import proofs.«128018_j63410897158187_1_alg».proof.Defs
import proofs.«128018_j63410897158187_1_alg».proof.Proof.Gen.Kernel
import proofs.«128018_j63410897158187_1_alg».proof.Proof.Gen.Kernel.Skeleton
import proofs.«128018_j63410897158187_1_alg».proof.Proof.Gen.Kernel.Launch
import proofs.«128018_j63410897158187_1_alg».proof.Proof.Gen.Kernel.Points
import proofs.«128018_j63410897158187_1_alg».proof.Proof.Gen.Kernel.Frame
import proofs.«128018_j63410897158187_1_alg».proof.Proof.Gen.KernelIdeal
import proofs.«128018_j63410897158187_1_alg».proof.Proof.Gen.KernelIdeal.Skeleton
import proofs.«128018_j63410897158187_1_alg».proof.Proof.Gen.KernelIdeal.Launch
import proofs.«128018_j63410897158187_1_alg».proof.Proof.Gen.KernelIdeal.Points
import proofs.«128018_j63410897158187_1_alg».proof.Proof.Gen.KernelIdeal.Frame
import proofs.«128018_j63410897158187_1_alg».proof.Proof.Gen.ReferenceIdeal
import proofs.«128018_j63410897158187_1_alg».proof.Proof.Gen.Pre_finite_inputs
import proofs.«128018_j63410897158187_1_alg».proof.Proof.RefRun
import proofs.«128018_j63410897158187_1_alg».proof.Proof.RefRead
import Idealize.ShloMosaic.Adequacy
import Idealize.ShloMosaic.Init
import proofs.«128018_j63410897158187_1_alg».proof.Proof.Algebraic

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  Cert.Proof.Value.algebraic⟩

end Cert.Proof

end
